-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16384 : Shape := ⟨2, ![1024, 16384]⟩
abbrev S4096x16384 : Shape := ⟨2, ![4096, 16384]⟩
abbrev S4096 : Shape := ⟨1, ![4096]⟩
abbrev S1024x4096 : Shape := ⟨2, ![1024, 4096]⟩
abbrev S1024 : Shape := ⟨1, ![1024]⟩
abbrev S256x1024 : Shape := ⟨2, ![256, 1024]⟩
abbrev S256 : Shape := ⟨1, ![256]⟩
abbrev S_ : Shape := ⟨0, ![]⟩

class Facts : Prop where
  bcast_S_S1024x16384 : S_.BroadcastsInDim S1024x16384 (![] : Fin 0 → Fin S1024x16384.rank)
  reducesTo_S1024x16384_S_d0_1 : S1024x16384.ReducesTo [0, 1] S_
  h_S_ : 0 < S_.numel
  bcast_S_S4096x16384 : S_.BroadcastsInDim S4096x16384 (![] : Fin 0 → Fin S4096x16384.rank)
  reducesTo_S4096x16384_S_d0_1 : S4096x16384.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S1024 .f32) (main_arg5 : FVec F S256x1024 .f32) (main_arg6 : FVec F S256 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S256x1024 .f32 := Host.absf main_arg5
  let main_cst_8 : FVec F S_ .f32 := constant S_ .f32 0x7F800000#32
  let main_v25 : FVec F S256x1024 .f32 := broadcastInDim S256x1024 ![] bcast_S_S256x1024 main_cst_8
  let main_v26 : IVec S256x1024 1 := cmpf .olt main_v24 main_v25
  let main_c_9 : IVec S_ 1 := constantI S_ 1 1#1
  let main_v27 : IVec S_ 1 := (fun x v => Host.reduce IntOp.andi x v reducesTo_S256x1024_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S1024x16384 .f32) (main_arg1 : FVec F S4096x16384 .f32) (main_arg2 : FVec F S4096 .f32) (main_arg3 : FVec F S1024x4096 .f32) (main_arg4 : FVec F S1024 .f32) (main_arg5 : FVec F S256x1024 .f32) (main_arg6 : FVec F S256 .f32) : IVec S_ 1 :=
  let main_v0 : FVec F S1024x16384 .f32 := Host.absf main_arg0
  let main_cst : FVec F S_ .f32 := constant S_ .f32 0x7F800000#32
  let main_v1 : FVec F S1024x16384 .f32 := broadcastInDim S1024x16384 ![] bcast_S_S1024x16384 main_cst
  let main_v2 : IVec S1024x16384 1 := cmpf .olt main_v0 main_v1
  let main_c : IVec S_ 1 := constantI S_ 1 1#1
  let main_v3 : IVec S_ 1 := (fun x v => Host.reduce IntOp.andi x v reducesTo_S1024x16384_S_d0_1 h_S_) main_v2 main_c
  let main_v4 : FVec F S4096x16384 .f32 := Host.absf main_arg1
  let main_cst_0 : FVec F S_ .f32 := constant S_ .f32 0x7F800000#32
  let main_v5 : FVec F S4096x16384 .f32 := broadcastInDim S4096x16384 ![] bcast_S_S4096x16384 main_cst_0
  let main_v6 : IVec S4096x16384 1 := cmpf .olt main_v4 main_v5
  let main_c_1 : IVec S_ 1 := constantI S_ 1 1#1
  let main_v7 : IVec S_ 1 := (fun x v => Host.reduce IntOp.andi x v reducesTo_S4096x16384_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_arg6 main_v13 main_v16
-- ==== Kernel.lean ====
abbrev S1024x16384 : Shape := ⟨2, ![1024, 16384]⟩
abbrev S4096x16384 : Shape := ⟨2, ![4096, 16384]⟩
abbrev S4096 : Shape := ⟨1, ![4096]⟩
abbrev S1024x4096 : Shape := ⟨2, ![1024, 4096]⟩
abbrev S1024 : Shape := ⟨1, ![1024]⟩
abbrev S256x1024 : Shape := ⟨2, ![256, 1024]⟩
abbrev S256 : Shape := ⟨1, ![256]⟩
abbrev S1024x2048 : Shape := ⟨2, ![1024, 2048]⟩
abbrev S1024x1024 : Shape := ⟨2, ![1024, 1024]⟩
abbrev S1x4096 : Shape := ⟨2, ![1, 4096]⟩
abbrev S1x1024 : Shape := ⟨2, ![1, 1024]⟩
abbrev S1x256 : Shape := ⟨2, ![1, 256]⟩
abbrev S1024x256 : Shape := ⟨2, ![1024, 256]⟩
abbrev S256x4096 : Shape := ⟨2, ![256, 4096]⟩
abbrev S256x256 : Shape := ⟨2, ![256, 256]⟩

abbrev nBuf : Space → Nat
  | .hbm => 14
  | .vmem => 14
  | .smem => 0
  | _ => 0

abbrev bufTy : (tb : Table) → Fin (tcTables nBuf tb) → BufTy
  | .hbm, ⟨0, _⟩ => ⟨S1024x16384, .f32⟩
  | .hbm, ⟨1, _⟩ => ⟨S4096x16384, .f32⟩
  | .hbm, ⟨2, _⟩ => ⟨S4096, .f32⟩
  | .hbm, ⟨3, _⟩ => ⟨S1024x4096, .f32⟩
  | .hbm, ⟨4, _⟩ => ⟨S1024, .f32⟩
  | .hbm, ⟨5, _⟩ => ⟨S256x1024, .f32⟩
  | .hbm, ⟨6, _⟩ => ⟨S256, .f32⟩
  | .hbm, ⟨7, _⟩ => ⟨S1024x4096, .f32⟩
  | .hbm, ⟨8, _⟩ => ⟨S1024x4096, .bf16⟩
  | .hbm, ⟨9, _⟩ => ⟨S256x1024, .bf16⟩
  | .hbm, ⟨10, _⟩ => ⟨S1x4096, .f32⟩
  | .hbm, ⟨11, _⟩ => ⟨S1x1024, .f32⟩
  | .hbm, ⟨12, _⟩ => ⟨S1x256, .f32⟩
  | .hbm, ⟨13, _⟩ => ⟨S1024x256, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S1024x4096, .f32⟩
  | .local _ .vmem, ⟨5, _⟩ => ⟨S256x4096, .f32⟩
  | .local _ .vmem, ⟨6, _⟩ => ⟨S256x4096, .f32⟩
  | .local _ .vmem, ⟨7, _⟩ => ⟨S1024x4096, .bf16⟩
  | .local _ .vmem, ⟨8, _⟩ => ⟨S256x1024, .bf16⟩
  | .local _ .vmem, ⟨9, _⟩ => ⟨S1x4096, .f32⟩
  | .local _ .vmem, ⟨10, _⟩ => ⟨S1x1024, .f32⟩
  | .local _ .vmem, ⟨11, _⟩ => ⟨S1x256, .f32⟩
  | .local _ .vmem, ⟨12, _⟩ => ⟨S256x256, .f32⟩
  | .local _ .vmem, ⟨13, _⟩ => ⟨S256x256, .f32⟩
  | _, _ => ⟨S1024x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13

abbrev nD : Nat := 1
abbrev τ : Topo := Topo.v7x

variable {F : FTy → Type} [FloatOps F]

abbrev grid0 : Pipeline.Grid := ⟨2, ![8, 4], ![false, false]⟩

def k0_off1 (i : grid0.Coords) : Fin 2 → Nat :=
  let c0_3 : Index := 0#32
  let arg1 : BitVec 32 := BitVec.ofNat 32 (i 1).val
  let c1024_i32 : BitVec 32 := 1024#32
  let v5 : BitVec 32 := Scalar.muli arg1 c1024_i32
  let c0_i32 : BitVec 32 := 0#32
  let v6 : BitVec 32 := Scalar.addi v5 c0_i32
  let v7 : Index := Scalar.indexCast v6
  ![0, v7.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  h_S1024x1024 : 0 < S1024x1024.numel
  shapeCasts_S1024x1024_S1024x1024 : S1024x1024.ShapeCasts S1024x1024
  shapeCasts_S4096_S1x4096 : S4096.ShapeCasts S1x4096
  shapeCasts_S1024_S1x1024 : S1024.ShapeCasts S1x1024
  shapeCasts_S256_S1x256 : S256.ShapeCasts S1x256
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  dot_S1024x2048_S1024x2048_S1024x1024_1_1_0_0_n_n_wf : DotDims.WF S1024x2048 S1024x2048 S1024x1024 [1] [1] [0] [0] [] []
  dot_S256x4096_S1024x4096_S256x1024_1_1_0_0_n_n_wf : DotDims.WF S256x4096 S1024x4096 S256x1024 [1] [1] [0] [0] [] []
  dot_S256x1024_S256x1024_S256x256_1_1_0_0_n_n_wf : DotDims.WF S256x1024 S256x1024 S256x256 [1] [1] [0] [0] [] []
  hrank0 : 0 < grid0.rank
  k0_off1_inb : ∀ i : grid0.Coords, ∀ a, (k0_off1 i) a + S1024x1024.size a ≤ S1024x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S1024x16384.size a
  hwx0_0 : ∀ i : grid0.Coords, EltTy.bits .f32 = 32 ∨ (Rect.block (s := S1024x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x16384.size a
  hwx0_1 : ∀ i : grid0.Coords, EltTy.bits .f32 = 32 ∨ (Rect.block (s := S4096x16384) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S1024x4096.size a
  hwx0_2 : ∀ i : grid0.Coords, EltTy.bits .f32 = 32 ∨ (Rect.block (s := S1024x4096) S1024x4096.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S1024x4096.size a
  hwx1_0 : ∀ i : grid1.Coords, EltTy.bits .f32 = 32 ∨ (Rect.block (s := S1024x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S1024x4096.size a
  hwx1_1 : ∀ i : grid1.Coords, EltTy.bits .bf16 = 32 ∨ (Rect.block (s := S1024x4096) S1024x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S256x1024.size a
  hwx1_2 : ∀ i : grid1.Coords, EltTy.bits .bf16 = 32 ∨ (Rect.block (s := S256x1024) S256x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4096.size a ≤ S1x4096.size a
  hwx1_3 : ∀ i : grid1.Coords, EltTy.bits .f32 = 32 ∨ (Rect.block (s := S1x4096) S1x4096.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S1024x256.size a
  hwx1_6 : ∀ i : grid1.Coords, EltTy.bits .f32 = 32 ∨ (Rect.block (s := S1024x256) S256x256.size (cc1_transform_6 i) (hinb1_6 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf
def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf
def dot_S256x1024_S256x1024_S256x256_1_1_0_0_n_n : DotDims S256x1024 S256x1024 S256x256 where
  lhsContracting := [1]
  rhsContracting := [1]
  lhsNonContracting := [0]
  rhsNonContracting := [0]
  lhsBatch := []
  rhsBatch := []
  wf := dot_S256x1024_S256x1024_S256x256_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x4096.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S256x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S256x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1024x16384 : Shape := ⟨2, ![1024, 16384]⟩
abbrev S4096x16384 : Shape := ⟨2, ![4096, 16384]⟩
abbrev S4096 : Shape := ⟨1, ![4096]⟩
abbrev S1024x4096 : Shape := ⟨2, ![1024, 4096]⟩
abbrev S1024 : Shape := ⟨1, ![1024]⟩
abbrev S256x1024 : Shape := ⟨2, ![256, 1024]⟩
abbrev S256 : Shape := ⟨1, ![256]⟩
abbrev S16384x4096 : Shape := ⟨2, ![16384, 4096]⟩
abbrev S1x4096 : Shape := ⟨2, ![1, 4096]⟩
abbrev S_ : Shape := ⟨0, ![]⟩
abbrev S4096x1024 : Shape := ⟨2, ![4096, 1024]⟩
abbrev S1024x1024 : Shape := ⟨2, ![1024, 1024]⟩
abbrev S1x1024 : Shape := ⟨2, ![1, 1024]⟩
abbrev S1024x256 : Shape := ⟨2, ![1024, 256]⟩
abbrev S1x256 : Shape := ⟨2, ![1, 256]⟩

abbrev nBuf : Space → Nat
  | .hbm => 28
  | .vmem => 0
  | .smem => 0
  | _ => 0

abbrev bufTy : (tb : Table) → Fin (tcTables nBuf tb) → BufTy
  | .hbm, ⟨0, _⟩ => ⟨S1024x16384, .f32⟩
  | .hbm, ⟨1, _⟩ => ⟨S4096x16384, .f32⟩
  | .hbm, ⟨2, _⟩ => ⟨S4096, .f32⟩
  | .hbm, ⟨3, _⟩ => ⟨S1024x4096, .f32⟩
  | .hbm, ⟨4, _⟩ => ⟨S1024, .f32⟩
  | .hbm, ⟨5, _⟩ => ⟨S256x1024, .f32⟩
  | .hbm, ⟨6, _⟩ => ⟨S256, .f32⟩
  | .hbm, ⟨7, _⟩ => ⟨S16384x4096, .f32⟩
  | .hbm, ⟨8, _⟩ => ⟨S1024x4096, .f32⟩
  | .hbm, ⟨9, _⟩ => ⟨S1x4096, .f32⟩
  | .hbm, ⟨10, _⟩ => ⟨S1024x4096, .f32⟩
  | .hbm, ⟨11, _⟩ => ⟨S1024x4096, .f32⟩
  | .hbm, ⟨12, _⟩ => ⟨S_, .f32⟩
  | .hbm, ⟨13, _⟩ => ⟨S1024x4096, .f32⟩
  | .hbm, ⟨14, _⟩ => ⟨S1024x4096, .f32⟩
  | .hbm, ⟨15, _⟩ => ⟨S4096x1024, .f32⟩
  | .hbm, ⟨16, _⟩ => ⟨S1024x1024, .f32⟩
  | .hbm, ⟨17, _⟩ => ⟨S1x1024, .f32⟩
  | .hbm, ⟨18, _⟩ => ⟨S1024x1024, .f32⟩
  | .hbm, ⟨19, _⟩ => ⟨S1024x1024, .f32⟩
  | .hbm, ⟨20, _⟩ => ⟨S_, .f32⟩
  | .hbm, ⟨21, _⟩ => ⟨S1024x1024, .f32⟩
  | .hbm, ⟨22, _⟩ => ⟨S1024x1024, .f32⟩
  | .hbm, ⟨23, _⟩ => ⟨S1024x256, .f32⟩
  | .hbm, ⟨24, _⟩ => ⟨S1024x256, .f32⟩
  | .hbm, ⟨25, _⟩ => ⟨S1x256, .f32⟩
  | .hbm, ⟨26, _⟩ => ⟨S1024x256, .f32⟩
  | .hbm, ⟨27, _⟩ => ⟨S1024x256, .f32⟩
  | _, _ => ⟨S1024x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call1_cst : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]

class Facts₀ : Prop where
  transposes_S4096x16384_S16384x4096_1_0 : S4096x16384.Transposes [1, 0] S16384x4096
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  bcast_S_S1024x4096 : S_.BroadcastsInDim S1024x4096 (![] : Fin 0 → Fin S1024x4096.rank)
  transposes_S1024x4096_S4096x1024_1_0 : S1024x4096.Transposes [1, 0] S4096x1024
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  bcast_S_S1024x1024 : S_.BroadcastsInDim S1024x1024 (![] : Fin 0 → Fin S1024x1024.rank)
  transposes_S256x1024_S1024x256_1_0 : S256x1024.Transposes [1, 0] S1024x256
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  dot_S1024x16384_S16384x4096_S1024x4096_1_0_0_1_n_n_wf : DotDims.WF S1024x16384 S16384x4096 S1024x4096 [1] [0] [0] [1] [] []
  dot_S1024x4096_S4096x1024_S1024x1024_1_0_0_1_n_n_wf : DotDims.WF S1024x4096 S4096x1024 S1024x1024 [1] [0] [0] [1] [] []
  dot_S1024x1024_S1024x256_S1024x256_1_0_0_1_n_n_wf : DotDims.WF S1024x1024 S1024x256 S1024x256 [1] [0] [0] [1] [] []

variable [Facts₀]

def dot_S1024x16384_S16384x4096_S1024x4096_1_0_0_1_n_n : DotDims S1024x16384 S16384x4096 S1024x4096 where
  lhsContracting := [1]
  rhsContracting := [0]
  lhsNonContracting := [0]
  rhsNonContracting := [1]
  lhsBatch := []
  rhsBatch := []
  wf := dot_S1024x16384_S16384x4096_S1024x4096_1_0_0_1_n_n_wf
def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

class Facts : Prop extends Facts₀ where

variable [Facts]
-- ==== Proof.BAcc.lean ====
/- The layer-0 accumulator as pure mathematics, at any float instance.

   The layer-0 kernel visits the grid point (k, n), k = 0..7 outermost and n = 0..3, once each. At a
   point it multiplies the k-th 2048-column slab of x with the matching slab of rows
   1024 n .. 1024 n + 1023 of W0 and puts the product into columns 1024 n .. 1024 n + 1023 of a
   1024 x 4096 buffer it keeps between points: at k = 0 the product itself, later the old contents
   plus the product. Whatever the buffer held before the first point is overwritten block by block
   during k = 0, so after the 32 points block n holds the left-nested sum over k of the eight
   products, independent of the initial contents. -/
import proofs.«142497_g35089882808761_cont_8to1_b_317_16_alg».proof.Proof.Gen.Kernel.Skeleton
import Idealize.ShloMosaic.Lib.Pipeline.FrameBody
import Idealize.ShloMosaic.Lib.Pipeline.Value
import Idealize.ShloMosaic.Lib.ValueIdx

noncomputable section

namespace Cert.Kernel.Hand

open Idealize.ShloMosaic Cert.Kernel Cert.Kernel.Gen

variable {F : FTy → Type} [FloatOps F]

/-- The column block of the kept buffer that the point with coordinates `i` reads and rewrites. -/
abbrev r0 (i : grid0.Coords) : Rect S1024x4096 :=
  Rect.unit (s := S1024x4096) (k0_off1 i) S1024x1024.size (k0_off1_inb i)

/-- What one grid point makes of the kept buffer `Y`, given the point's x slab and W0 block. -/
def step0 (i : grid0.Coords) (x w : Vec F S1024x2048 .f32) (Y : Vec F S1024x4096 .f32) : Vec F S1024x4096 .f32 :=
  (r0 i).overlay Y (k0_pay1 i x w (View.ld Y (r0 i)))

/-- The product of one x slab with one W0 block (contracting the 2048 shared columns). -/
def part0 (x w : Vec F S1024x2048 .f32) : Vec F S1024x1024 .f32 :=
  matmul dot_S1024x2048_S1024x2048_S1024x1024_1_1_0_0_n_n none (truncf .bf16 x bitsLt_bf16_f32) (truncf .bf16 w bitsLt_bf16_f32)
    (constant S1024x1024 .f32 0x00000000#32)

/-- Column block `n` after the slabs `0 .. k`: the first product, then each later one added on the right.
    The point (k, n) is number `4 k + n` of the grid; `xb t`, `wb t` are the blocks it is handed. -/
def accum0 (xb wb : ℕ → Vec F S1024x2048 .f32) : ℕ → ℕ → Vec F S1024x1024 .f32
  | 0, n => part0 (xb n) (wb n)
  | k + 1, n => addf (accum0 xb wb k n) (part0 (xb (4 * (k + 1) + n)) (wb (4 * (k + 1) + n)))

/-- An index of the kept buffer, read inside its column block. -/
abbrev blockIx (j : S1024x4096.Idx) : S1024x1024.Idx :=
  ValueIdx.ix2 (⟨(j 0).val, (j 0).isLt⟩ : Fin 1024) (⟨(j 1).val % 1024, Nat.mod_lt _ (by decide)⟩ : Fin 1024)

/-- The kept buffer after all 32 points: column block `n` is `accum0 … 7 n`. -/
def final0 (xb wb : ℕ → Vec F S1024x2048 .f32) : Vec F S1024x4096 .f32 :=
  fun j => accum0 xb wb 7 ((j 1).val / 1024) (blockIx j)

/-- What is known of the kept buffer before point number `t` (after the points below `t`): every column
    block some point has already written holds the nested sum of the products so far; nothing is said
    of a block not yet written. -/
def Inv0 (xb wb : ℕ → Vec F S1024x2048 .f32) (t : ℕ) (Y : Vec F S1024x4096 .f32) : Prop :=
  ∀ j : S1024x4096.Idx, ∀ k : ℕ, 4 * k + (j 1).val / 1024 < t → t ≤ 4 * (k + 1) + (j 1).val / 1024 →
    Y j = accum0 xb wb k ((j 1).val / 1024) (blockIx j)

/-! ## The grid's points, the block's place, and what a point writes -/

/-- The layer-0 grid has 8 * 4 = 32 points. -/
private theorem grid0_N : grid0.N = 32 := by decide

/-- Point number `t` has coordinates `(k, n)` with `t = 4 k + n`. -/
private theorem coords_split : ∀ t : Fin grid0.N, t.val = 4 * (grid0.coords t 0).val + (grid0.coords t 1).val := by
  decide +kernel

private theorem coords1_lt (i : grid0.Coords) : (i 1).val < 4 := (i 1).isLt
private theorem coords0_lt (i : grid0.Coords) : (i 0).val < 8 := (i 0).isLt

/-- The block starts at row 0. -/
private theorem off1_0 (i : grid0.Coords) : k0_off1 i 0 = 0 := rfl

private theorem off1_1_aux : ∀ n : Fin 4, (Scalar.indexCast (Scalar.addi (Scalar.muli (BitVec.ofNat 32 n.val) 1024#32) 0#32)).toNat = 1024 * n.val := by
  decide

/-- The block starts at column `1024 n`: the 32-bit product does not wrap for `n < 4`. -/
private theorem off1_1 (i : grid0.Coords) : k0_off1 i 1 = 1024 * (i 1).val := off1_1_aux (i 1)

private theorem cmp_aux : ∀ k : Fin 8, (Scalar.cmpi .eq (BitVec.ofNat 32 k.val) 0#32 = 1) ↔ k.val = 0 := by
  decide

/-- At `k = 0` the point writes the product itself. -/
private theorem pay_zero (i : grid0.Coords) (hi : (i 0).val = 0) (x w : Vec F S1024x2048 .f32) (v : Vec F S1024x1024 .f32) :
    k0_pay1 i x w v = part0 x w := by
  have hc : Scalar.cmpi .eq (BitVec.ofNat 32 (i 0).val) 0#32 = 1 := (cmp_aux (i 0)).mpr hi
  simp only [k0_pay1, part0, Scalar.select, hc, if_true]

/-- At `k > 0` the point writes what it read plus the product. -/
private theorem pay_succ (i : grid0.Coords) (hi : (i 0).val ≠ 0) (x w : Vec F S1024x2048 .f32) (v : Vec F S1024x1024 .f32) :
    k0_pay1 i x w v = addf v (part0 x w) := by
  have hc : ¬ Scalar.cmpi .eq (BitVec.ofNat 32 (i 0).val) 0#32 = 1 := fun h => hi ((cmp_aux (i 0)).mp h)
  simp only [k0_pay1, part0, Scalar.select, hc, if_false, shapeCast_self]

/-- An index lies in the block of the point `i` exactly when its column block is the point's `n`. -/
private theorem mem_r0_iff (i : grid0.Coords) (j : S1024x4096.Idx) : j ∈ (r0 i).set ↔ (i 1).val = (j 1).val / 1024 := by
  have hn := coords1_lt i
  have hj1 : (j 1).val < 4096 := (j 1).isLt
  have hj0 : (j 0).val < 1024 := (j 0).isLt
  have hs0 : S1024x1024.size 0 = 1024 := rfl
  have hs1 : S1024x1024.size 1 = 1024 := rfl
  rw [Rect.mem_set_unit]
  constructor
  · intro h
    have h1 := h 1
    rw [off1_1, hs1] at h1
    omega
  · intro h
    refine Fin.forall_fin_two.mpr ⟨?_, ?_⟩
    · rw [off1_0, hs0]; omega
    · rw [off1_1, hs1]; omega

/-- An index of the block, placed in the buffer and read back inside the block, is itself. -/
private theorem emb_blockIx (i : grid0.Coords) (j : S1024x4096.Idx) (h : (i 1).val = (j 1).val / 1024) :
    (r0 i).emb (blockIx j) = j := by
  funext a
  apply Fin.ext
  rw [Rect.emb_apply]
  match a with
  | ⟨0, _⟩ =>
    show k0_off1 i 0 + 1 * (j 0).val = (j 0).val
    rw [off1_0]; omega
  | ⟨1, _⟩ =>
    show k0_off1 i 1 + 1 * ((j 1).val % 1024) = (j 1).val
    rw [off1_1]; omega

/-- The column of a placed block index: `1024 n` plus the index's own column. -/
private theorem idx_col (i : grid0.Coords) (x : S1024x1024.Idx) : ((r0 i).idx x 1).val = 1024 * (i 1).val + (x 1).val := by
  show k0_off1 i 1 + 1 * (x 1).val = _
  rw [off1_1]; omega

private theorem idx_row (i : grid0.Coords) (x : S1024x1024.Idx) : ((r0 i).idx x 0).val = (x 0).val := by
  show k0_off1 i 0 + 1 * (x 0).val = _
  rw [off1_0]; omega

/-- A placed block index lies in column block `n`. -/
private theorem idx_block (i : grid0.Coords) (x : S1024x1024.Idx) : ((r0 i).idx x 1).val / 1024 = (i 1).val := by
  have hx : (x 1).val < 1024 := (x 1).isLt
  rw [idx_col]; omega

/-- Read back inside the block, a placed block index is the index. -/
private theorem blockIx_idx (i : grid0.Coords) (x : S1024x1024.Idx) : blockIx ((r0 i).idx x) = x := by
  have hx : (x 1).val < 1024 := (x 1).isLt
  funext a
  apply Fin.ext
  match a with
  | ⟨0, _⟩ =>
    show ((r0 i).idx x 0).val = (x 0).val
    exact idx_row i x
  | ⟨1, _⟩ =>
    show ((r0 i).idx x 1).val % 1024 = (x 1).val
    rw [idx_col]; omega

/-! ## The three steps of the induction over the 32 points -/

theorem inv0_zero (xb wb : ℕ → Vec F S1024x2048 .f32) (Y : Vec F S1024x4096 .f32) : Inv0 xb wb 0 Y := by
  intro j k hlo _
  exact absurd hlo (Nat.not_lt_zero _)

theorem inv0_step (xb wb : ℕ → Vec F S1024x2048 .f32) (t : Fin grid0.N) (Y : Vec F S1024x4096 .f32)
    (h : Inv0 xb wb t.val Y) : Inv0 xb wb (t.val + 1) (step0 (grid0.coords t) (xb t.val) (wb t.val) Y) := by
  intro j k hlo hhi
  have hj1 : (j 1).val < 4096 := (j 1).isLt
  have hs := coords_split t
  have h1 := coords1_lt (grid0.coords t)
  have h0 := coords0_lt (grid0.coords t)
  generalize grid0.coords t = i at hs h1 h0 ⊢
  by_cases hn : (i 1).val = (j 1).val / 1024
  · -- the index is in the block this point rewrites: k is the point's k
    have hk : k = (i 0).val := by omega
    subst hk
    have hj := emb_blockIx i j hn
    have hov := Rect.overlay_emb (r0 i) Y (k0_pay1 i (xb t.val) (wb t.val) (View.ld Y (r0 i))) (blockIx j)
    rw [hj] at hov
    unfold step0
    rw [hov, ← hn]
    refine congrFun ?_ (blockIx j)
    rcases Nat.eq_zero_or_pos (i 0).val with hz | hp
    · -- first slab: the product itself
      have ht : t.val = (i 1).val := by omega
      rw [pay_zero i hz, hz, ht, accum0]
    · -- later slab: the block held the sum so far
      obtain ⟨k', hk'⟩ : ∃ k', (i 0).val = k' + 1 := ⟨(i 0).val - 1, by omega⟩
      have ht : t.val = 4 * (k' + 1) + (i 1).val := by omega
      have hld : View.ld Y (r0 i) = accum0 xb wb k' (i 1).val := by
        funext x
        have hx := h ((r0 i).idx x) k' (by rw [idx_block]; omega) (by rw [idx_block]; omega)
        rw [idx_block, blockIx_idx] at hx
        exact hx
      rw [pay_succ i (by omega), hk', accum0, hld, ht]
  · -- the index is in another block: untouched, and its k is as before
    unfold step0
    rw [Rect.overlay_of_not_mem _ _ _ (fun hm => hn ((mem_r0_iff i j).mp hm))]
    exact h j k (by omega) (by omega)

theorem inv0_final (xb wb : ℕ → Vec F S1024x2048 .f32) (Y : Vec F S1024x4096 .f32) (h : Inv0 xb wb 32 Y) :
    Y = final0 xb wb := by
  funext j
  have hj1 : (j 1).val < 4096 := (j 1).isLt
  exact h j 7 (by omega) (by omega)

end Cert.Kernel.Hand

end
-- ==== Proof.BBody0.lean ====
/- Region 0 (the layer-0 matmul) as a pipeline: what its body does to its three staging buffers at a grid
   point, stated as RELATIONS (the x and W0 blocks are left as found; the kept 1024 x 4096 buffer goes
   from Y to step0 … Y), and what the region leaves in its result array: final0 of the blocks. -/
import proofs.«142497_g35089882808761_cont_8to1_b_317_16_alg».proof.Proof.BAcc
import proofs.«142497_g35089882808761_cont_8to1_b_317_16_alg».proof.Proof.Gen.Kernel.Launch
import proofs.«142497_g35089882808761_cont_8to1_b_317_16_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

/-! ## The body's triple -/

theorem zero2 : (![0, 0] : Fin 2 → ℕ) = fun _ => 0 := by
  funext a; match a with | ⟨0, _⟩ => rfl | ⟨1, _⟩ => rfl

set_option maxHeartbeats 1000000 in
/-- The layer-0 body at coordinates `i`, on whole staging memrefs holding an x slab, a W0 block and the kept
    buffer at `Y`: it leaves the first two as they were and the third at `step0 i x w Y`. -/
theorem sound_kernel0 (c : Dev nD) (E : Set ℕ) (i : grid0.Coords)
    (arg2 : Memref sig .tc .vmem S1024x2048 .f32) (harg2 : arg2.IsWhole) (arg3 : Memref sig .tc .vmem S1024x2048 .f32) (harg3 : arg3.IsWhole)
    (arg4 : Memref sig .tc .vmem S1024x4096 .f32) (harg4 : arg4.IsWhole)
    (x w : Vec F S1024x2048 .f32) (Y : Vec F S1024x4096 .f32) (K : PUnit → sProp 𝕄) :
    iprop(owns (c : Thread nD τ) arg2 fullShare x ∗ owns (c : Thread nD τ) arg3 fullShare w ∗ owns (c : Thread nD τ) arg4 fullShare Y
        ∗ (iprop(owns (c : Thread nD τ) arg2 fullShare x ∗ owns (c : Thread nD τ) arg3 fullShare w
            ∗ owns (c : Thread nD τ) arg4 fullShare (step0 i x w Y)) -∗ K ⟨⟩))
      ⊢ wp frame (wpE (defs₀ (F := F)) Variants.none c none) E (cc0__layer0_kernel i arg2 harg2 arg3 harg3 arg4 harg4) K := by
  simp only [cc0__layer0_kernel_eq_skeleton]; unfold cc0__layer0_kernel_skel
  unfold owns
  iintro ⟨⟨%f0, %hf0, H0⟩, ⟨%f1, %hf1, H1⟩, ⟨%f2, %hf2, H2⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the one store, read back: its payload on the column block, the old contents off it
  have e0 : View.readAt (Elt F) arg2.view (Rect.unit (s := S1024x2048) ![0, 0] S1024x2048.size inb_S1024x2048_S1024x2048_0_0).toLoadRect f0
      = View.read (Elt F) arg2.view f0 :=
    (View.readAt_eq_ld arg2.view f0 _).trans (View.ld_unit_zero (S := S1024x2048) zero2 _ _)
  have e1 : View.readAt (Elt F) arg3.view (Rect.unit (s := S1024x2048) ![0, 0] S1024x2048.size inb_S1024x2048_S1024x2048_0_0).toLoadRect f1
      = View.read (Elt F) arg3.view f1 :=
    (View.readAt_eq_ld arg3.view f1 _).trans (View.ld_unit_zero (S := S1024x2048) zero2 _ _)
  rw [e0, e1]
  funext j
  unfold step0
  by_cases hj : j ∈ (r0 i).set
  · obtain ⟨y, rfl⟩ : ∃ y, (r0 i).emb y = j := (r0 i).exists_idx_of_mem hj
    rw [View.read_writes_cons_emb, Rect.overlay_emb]
    rfl
  · rw [Rect.overlay_of_not_mem _ _ _ hj, View.writes_cons, View.writes_nil,
      View.read_slice_write_of_not_mem (r0 i) _ _ _ (by rwa [Rect.map_emb_univ])]

variable (V : (c : Dev nD) → (b : Ref sig .tc) → Buf (Elt F) ((c : Thread nD τ).loc b))

/-! ## The proof data -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem lt_N0 (t : ℕ) : t % 32 < cfg0.N := by
  rw [show cfg0.N = 32 from N_0]; exact Nat.mod_lt _ (by decide)

/-- The x slab and the W0 block handed to the point numbered `t`. -/
def xb0 (c : Dev nD) (t : ℕ) : Vec F S1024x2048 .f32 := iblk0 V c 0 ⟨t % 32, lt_N0 t⟩
def wb0 (c : Dev nD) (t : ℕ) : Vec F S1024x2048 .f32 := iblk0 V c 1 ⟨t % 32, lt_N0 t⟩

/-- Region 0's proof data on core `c`: the arrays as the region finds them; the x and W0 staging buffers
    left as the body found them; the kept buffer stepped by `step0` at the point's blocks. -/
def rdat0 (c : Dev nD) : RDat τ (Elt F) Unit ℕ (UR sig nD τ) ℕ cfg0 c where
  A w := V c (Pipeline.arrRef spec0 w)
  after w t Y X := match w with
    | ⟨0, _⟩ => X = Y
    | ⟨1, _⟩ => X = Y
    | ⟨2, _⟩ => X = step0 (grid0.coords t) (iblk0 V c 0 t) (iblk0 V c 1 t) Y
  Φ _ := Pipeline.ΦA spec0 c
  q _ := fullShare
  owed _ := 0

theorem A_eq0 (c : Dev nD) (w : Fin cfg0.W) : (rdat0 V c).A w = V c (Pipeline.arrRef spec0 w) := by
  dsimp only [rdat0]

/-! ## What the body finds in its staging buffers -/

/-- The x slab's and the W0 block's staging buffers hold their blocks at every point, fetched there or not. -/
theorem finds0_x (c : Dev nD) (t : Fin cfg0.N) (Y) (h : (rdat0 V c).Finds 0 t Y) : Y = iblk0 V c 0 t := by
  obtain ⟨d, rfl⟩ := RDat.finds_in_eq_fetched (rdat0 V c) 0 rfl (fun _ _ _ => rfl)
    (fun t Y X h => by dsimp only [rdat0] at h; exact h) t Y h
  unfold RDat.fetched RDat.blockOf iblk0; rw [A_eq0]; rfl

theorem finds0_w (c : Dev nD) (t : Fin cfg0.N) (Y) (h : (rdat0 V c).Finds 1 t Y) : Y = iblk0 V c 1 t := by
  obtain ⟨d, rfl⟩ := RDat.finds_in_eq_fetched (rdat0 V c) 1 rfl (fun _ _ _ => rfl)
    (fun t Y X h => by dsimp only [rdat0] at h; exact h) t Y h
  unfold RDat.fetched RDat.blockOf iblk0; rw [A_eq0]; rfl

theorem fin_mod (t : Fin cfg0.N) : (⟨t.val % 32, lt_N0 t.val⟩ : Fin cfg0.N) = t :=
  Fin.ext (Nat.mod_eq_of_lt (t.isLt.trans_eq N_0))

theorem xb0_val (c : Dev nD) (t : Fin cfg0.N) : xb0 V c t.val = iblk0 V c 0 t := by unfold xb0; rw [fin_mod]
theorem wb0_val (c : Dev nD) (t : Fin cfg0.N) : wb0 V c t.val = iblk0 V c 1 t := by unfold wb0; rw [fin_mod]

/-- The kept buffer never leaves its staging buffer before the last point, so what the body finds there at
    point `t` is what the points before made of whatever it held at first. -/
theorem finds0_out (c : Dev nD) : ∀ (t : Fin cfg0.N) (Y), (rdat0 V c).Finds 2 t Y → Inv0 (xb0 V c) (wb0 V c) t.val Y := by
  intro t
  induction hn : t.val using Nat.strong_induction_on generalizing t with
  | _ n ih =>
    subst hn; intro Y hY
    by_cases ht : t.val = 0
    · rw [ht]; exact inv0_zero _ _ _
    · have hf : (cfg0.win 2).fetch t = false := (cfg0.win 2).fetch_out rfl t
      have htN : t.val < 32 := t.isLt.trans_eq N_0
      rcases ((rdat0 V c).finds_of_pos hf ht Y).mp hY with hfl | ⟨Y', hY', hR⟩
      · have := (flush0_2 ⟨t.val - 1, Nat.lt_of_le_of_lt (Nat.sub_le _ _) t.isLt⟩).mp hfl
        simp only at this; omega
      · dsimp only [rdat0] at hR
        have ih' := ih (t.val - 1) (by omega) ⟨t.val - 1, Nat.lt_of_le_of_lt (Nat.sub_le _ _) t.isLt⟩ rfl Y' hY'
        have hs := inv0_step (xb0 V c) (wb0 V c) ⟨t.val - 1, Nat.lt_of_le_of_lt (Nat.sub_le _ _) t.isLt⟩ Y' ih'
        rw [xb0_val, wb0_val, ← hR] at hs
        have e : t.val - 1 + 1 = t.val := by omega
        simp only [e] at hs
        exact hs

theorem leaves0_out (c : Dev nD) (t : Fin cfg0.N) (X) (h : (rdat0 V c).Leaves 2 t X) : Inv0 (xb0 V c) (wb0 V c) (t.val + 1) X := by
  obtain ⟨Y, hY, hR⟩ := h
  dsimp only [rdat0] at hR
  have hs := inv0_step (xb0 V c) (wb0 V c) t Y (finds0_out V c t Y hY)
  rw [xb0_val, wb0_val, ← hR] at hs
  exact hs

/-! ## What the region leaves in its arrays -/

/-- The result array after the region: `final0` of the blocks the points were handed. -/
def res0 (c : Dev nD) : Buf (Elt F) ((c : Thread nD τ).loc main_v0) := final0 (xb0 V c) (wb0 V c)

/-- The x and W0 arrays are never written. -/
theorem arrAt0_in (c : Dev nD) (w : Fin cfg0.W) (hw : (cfg0.win w).isOut = false) (n : ℕ) (G)
    (h : (rdat0 V c).ArrAt w n G) : G = V c (Pipeline.arrRef spec0 w) := by
  rw [RDat.ArrAt_in (rdat0 V c) w hw n] at h; exact h.trans (A_eq0 V c w)

/-- Before the last point nothing is written back to the result array. -/
theorem arrAt0_out_lt (c : Dev nD) : ∀ n : ℕ, n ≤ 31 → (rdat0 V c).ArrAt 2 n = fun G => G = (rdat0 V c).A 2
  | 0, _ => rfl
  | n + 1, hn => by
    have hlt : n < cfg0.N := by rw [show cfg0.N = 32 from N_0]; omega
    rw [RDat.ArrAt_succ (rdat0 V c) 2 ⟨n, hlt⟩, if_neg, arrAt0_out_lt c n (by omega)]
    intro hfl
    have := (flush0_2 ⟨n, hlt⟩).mp hfl
    simp only at this; omega

/-- The result window's block is the whole array at every point. -/
theorem idx0_out : ∀ t : Fin cfg0.N, win0_2.index t (0 : Fin 2) = 0 ∧ win0_2.index t (1 : Fin 2) = 0 :=
  (by decide +kernel : ∀ t : Fin grid0.N, _)

/-- The last point's write-back puts the whole kept buffer into the result array. -/
theorem arrAt0_out (c : Dev nD) (G) (h : (rdat0 V c).ArrAt 2 cfg0.N G) : G = res0 V c := by
  have h31 : (31 : ℕ) < cfg0.N := by rw [show cfg0.N = 32 from N_0]; decide
  have hN : cfg0.N = (⟨31, h31⟩ : Fin cfg0.N).val + 1 := N_0
  rw [hN, RDat.ArrAt_succ (rdat0 V c) 2 ⟨31, h31⟩, if_pos ((flush0_2 ⟨31, h31⟩).mpr rfl), arrAt0_out_lt V c 31 (le_refl _)] at h
  obtain ⟨G₀, X, rfl, hX, rfl⟩ := h
  have hfin := inv0_final (xb0 V c) (wb0 V c) X (leaves0_out V c ⟨31, h31⟩ X hX)
  subst hfin
  unfold res0
  funext i
  obtain ⟨z0, z1⟩ := idx0_out ⟨31, h31⟩
  have hi : i ∈ ((cfg0.win 2).blk ⟨31, h31⟩).view.set := by
    show i ∈ ((View.whole main_v0).slice (win0_2.rect ⟨31, h31⟩)).set
    rw [View.set_slice_whole, Rect.mem_set_unit]
    intro a
    match a with
    | ⟨0, _⟩ =>
      show win0_2.index ⟨31, h31⟩ (0 : Fin 2) * 1024 ≤ (i 0).val ∧ (i 0).val < win0_2.index ⟨31, h31⟩ (0 : Fin 2) * 1024 + 1024
      have hb : (i 0).val < 1024 := (i 0).isLt
      rw [z0]; omega
    | ⟨1, _⟩ =>
      show win0_2.index ⟨31, h31⟩ (1 : Fin 2) * 4096 ≤ (i 1).val ∧ (i 1).val < win0_2.index ⟨31, h31⟩ (1 : Fin 2) * 4096 + 4096
      have hb : (i 1).val < 4096 := (i 1).isLt
      rw [z1]; omega
  obtain ⟨y, rfl⟩ := View.exists_emb_of_mem_set _ hi
  rw [View.write_emb_of_mem _ _ (Finset.mem_univ y)]
  show final0 (xb0 V c) (wb0 V c) y = final0 (xb0 V c) (wb0 V c) (((cfg0.win 2).blk ⟨31, h31⟩).view.emb y)
  congr 1
  funext a; apply Fin.ext
  match a with
  | ⟨0, _⟩ => show (y 0).val = win0_2.index ⟨31, h31⟩ (0 : Fin 2) * 1024 + 1 * (y 0).val; rw [z0]; omega
  | ⟨1, _⟩ => show (y 1).val = win0_2.index ⟨31, h31⟩ (1 : Fin 2) * 4096 + 1 * (y 1).val; rw [z1]; omega

/-! ## The body obligation -/

set_option maxHeartbeats 1000000 in
theorem body_obligation0 (c : Dev nD) : (rdat0 (F := F) V c).BodyObligation (defs₀ (F := F)) Variants.none () Set.univ := fun t Y hY => by
  rw [bigSep_W0, bigSep_W0]
  have h0 := finds0_x V c t (Y 0) (hY 0)
  have h1 := finds0_w V c t (Y 1) (hY 1)
  show _ ⊢ wp frame (wpE (defs₀ (F := F)) Variants.none c none) Set.univ (bodyAt0 t) _
  unfold bodyAt0
  rw [show (rdat0 V c).Φ t.succ = (rdat0 V c).Φ t.castSucc from rfl,
    show (rdat0 V c).owesAt () t.succ = (rdat0 V c).owesAt () t.castSucc from rfl]
  iintro ⟨HΦ, Ho, H0, H1, H2⟩
  iapply (sound_kernel0 c Set.univ (grid0.coords t) _ _ _ _ _ _ (Y 0) (Y 1) (Y 2) _)
  isplitl [H0]; · iexact H0
  isplitl [H1]; · iexact H1
  isplitl [H2]; · iexact H2
  iintro ⟨H0, H1, H2⟩
  isplitl [HΦ]; · iexact HΦ
  isplitl [Ho]; · iexact Ho
  isplitl [H0]
  · iexists (Y 0); isplitr
    · ipureintro; dsimp only [rdat0]
    · iexact H0
  isplitl [H1]
  · iexists (Y 1); isplitr
    · ipureintro; dsimp only [rdat0]
    · iexact H1
  iexists (step0 (grid0.coords t) (Y 0) (Y 1) (Y 2)); isplitr
  · ipureintro; dsimp only [rdat0]; rw [h0, h1]
  · iexact H2

end Cert.Kernel.Hand

end
-- ==== Proof.BBody1.lean ====
/- The tail kernel (the second pallas_call) as a pipeline body, at any float instance.

   The call runs a grid of four points. At a point it is handed a 256 x 4096 slab of the previous
   layer's result (a different slab at each point) together with five arrays that never change: the
   two remaining weight matrices and the three bias rows. From them it computes
   relu(relu(slab + b0) W1ᵀ + b1) W2ᵀ + b2, a 256 x 256 block, and stores it over the whole of its
   output buffer; the old contents of that buffer are loaded once but never used. So what the body
   leaves in the output buffer is a closed function of the six input blocks, and every input buffer is
   left as found. This file states that as the pipeline's proof data and proves the body obligation. -/
import proofs.«142497_g35089882808761_cont_8to1_b_317_16_alg».proof.Proof.Gen.Kernel.Skeleton
import proofs.«142497_g35089882808761_cont_8to1_b_317_16_alg».proof.Proof.Gen.Kernel.Launch
import proofs.«142497_g35089882808761_cont_8to1_b_317_16_alg».proof.Proof.Gen.Kernel.Points
import Idealize.ShloMosaic.Lib.Pipeline.FrameBody
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An input buffer holds its block, fetched at the point or not

The slab is fetched at every point. The five constant arrays are fetched at the first point only; at a
later point their block index has not moved and the body left the buffer alone, so the buffer still
holds the block. One library lemma covers both cases. -/

/-- Input window 0 (the 256 x 4096 slab of the previous layer's result, a new one at every point): its current staging buffer holds its block at every point, for any
    proof data over the arrays `V` whose body leaves that block where it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl)
      (fun t => by rw [hafter]; unfold Dat.blockOf iblk1; rw [hA]; try rfl) t d).trans
    (by unfold Dat.fetched Dat.blockOf iblk1; rw [hA]; try rfl)

/-- Input window 1 (the whole 1024 x 4096 weight of the middle layer): its current staging buffer holds its block at every point, for any
    proof data over the arrays `V` whose body leaves that block where it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl)
      (fun t => by rw [hafter]; unfold Dat.blockOf iblk1; rw [hA]; try rfl) t d).trans
    (by unfold Dat.fetched Dat.blockOf iblk1; rw [hA]; try rfl)

/-- Input window 2 (the whole 256 x 1024 weight of the last layer): its current staging buffer holds its block at every point, for any
    proof data over the arrays `V` whose body leaves that block where it found it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl)
      (fun t => by rw [hafter]; unfold Dat.blockOf iblk1; rw [hA]; try rfl) t d).trans
    (by unfold Dat.fetched Dat.blockOf iblk1; rw [hA]; try rfl)

/-- Input window 3 (the first bias row): its current staging buffer holds its block at every point, for any
    proof data over the arrays `V` whose body leaves that block where it found it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl)
      (fun t => by rw [hafter]; unfold Dat.blockOf iblk1; rw [hA]; try rfl) t d).trans
    (by unfold Dat.fetched Dat.blockOf iblk1; rw [hA]; try rfl)

/-- Input window 4 (the second bias row): its current staging buffer holds its block at every point, for any
    proof data over the arrays `V` whose body leaves that block where it found it. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl)
      (fun t => by rw [hafter]; unfold Dat.blockOf iblk1; rw [hA]; try rfl) t d).trans
    (by unfold Dat.fetched Dat.blockOf iblk1; rw [hA]; try rfl)

/-- Input window 5 (the third bias row): its current staging buffer holds its block at every point, for any
    proof data over the arrays `V` whose body leaves that block where it found it. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl)
      (fun t => by rw [hafter]; unfold Dat.blockOf iblk1; rw [hA]; try rfl) t d).trans
    (by unfold Dat.fetched Dat.blockOf iblk1; rw [hA]; try rfl)

/-! ## The body's accesses: each buffer through the rectangle that is the whole of it -/

abbrev rIn0 : Rect S256x4096 := Rect.unit (s := S256x4096) ![0, 0] S256x4096.size inb_S256x4096_S256x4096_0_0
abbrev rIn1 : Rect S1024x4096 := Rect.unit (s := S1024x4096) ![0, 0] S1024x4096.size inb_S1024x4096_S1024x4096_0_0
abbrev rIn2 : Rect S256x1024 := Rect.unit (s := S256x1024) ![0, 0] S256x1024.size inb_S256x1024_S256x1024_0_0
abbrev rIn3 : Rect S1x4096 := Rect.unit (s := S1x4096) ![0, 0] S1x4096.size inb_S1x4096_S1x4096_0_0
abbrev rIn4 : Rect S1x1024 := Rect.unit (s := S1x1024) ![0, 0] S1x1024.size inb_S1x1024_S1x1024_0_0
abbrev rIn5 : Rect S1x256 := Rect.unit (s := S1x256) ![0, 0] S1x256.size inb_S1x256_S1x256_0_0
abbrev rOut : Rect S256x256 := Rect.unit (s := S256x256) ![0, 0] S256x256.size inb_S256x256_S256x256_0_0

/-! ## What the body leaves in the output buffer -/

/-- The output buffer after the body, from the six input blocks: the one store's payload laid over the whole
    block. The payload takes the slab, the first bias, the middle weight, the second bias, the last weight
    and the third bias, in that order. -/
def out1_6 (x0 : Vec F S256x4096 .f32) (x1 : Vec F S1024x4096 .bf16) (x2 : Vec F S256x1024 .bf16)
    (x3 : Vec F S1x4096 .f32) (x4 : Vec F S1x1024 .f32) (x5 : Vec F S1x256 .f32) : Vec F S256x256 .f32 :=
  View.canon [⟨rOut, k1_pay1 (View.ld x0 rIn0) (View.ld x3 rIn3) (View.ld x1 rIn1) (View.ld x4 rIn4) (View.ld x2 rIn2) (View.ld x5 rIn5)⟩]

/-- The one store's rectangle is the whole block, so every index of the block lies under it. -/
theorem cover1_6 (p0 : Vec F S256x256 .f32) (y : S256x256.Idx) :
    ∃ pc ∈ ([⟨rOut, p0⟩] : List (View.Piece (Elt F) S256x256 .f32)), y ∈ pc.1.set :=
  View.cover_of_tiled [⟨rOut, p0⟩] S256x256.size (by rfl) y

/-! ## The body's triple -/

set_option maxHeartbeats 1000000 in
/-- The kernel body on whole staging memrefs, the six inputs' at read contents `x0 … x5` and the output's at
    anything, runs to a continuation that holds the inputs' as they were and the output's at `out1_6` of
    them. -/
theorem sound_kernel1 (c : Dev nD) (E : Set ℕ) (i : grid1.Coords)
    (arg1 : Memref sig .tc .vmem S256x4096 .f32) (harg1 : arg1.IsWhole) (arg2 : Memref sig .tc .vmem S1024x4096 .bf16) (harg2 : arg2.IsWhole)
    (arg3 : Memref sig .tc .vmem S256x1024 .bf16) (harg3 : arg3.IsWhole) (arg4 : Memref sig .tc .vmem S1x4096 .f32) (harg4 : arg4.IsWhole)
    (arg5 : Memref sig .tc .vmem S1x1024 .f32) (harg5 : arg5.IsWhole) (arg6 : Memref sig .tc .vmem S1x256 .f32) (harg6 : arg6.IsWhole)
    (arg7 : Memref sig .tc .vmem S256x256 .f32) (harg7 : arg7.IsWhole)
    (x0 : Vec F S256x4096 .f32) (x1 : Vec F S1024x4096 .bf16) (x2 : Vec F S256x1024 .bf16)
    (x3 : Vec F S1x4096 .f32) (x4 : Vec F S1x1024 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E
          (cc1__tail_kernel i arg1 harg1 arg2 harg2 arg3 harg3 arg4 harg4 arg5 harg5 arg6 harg6 arg7 harg7) K := by
  simp only [cc1__tail_kernel_eq_skeleton]; unfold cc1__tail_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of the call on core `c`: the arrays as the region finds them; after the body at point `t`
    each input's buffer at its block and the output's at `out1_6` of the six blocks; the invariant is the
    untouched rest of the core; nothing is owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant
    and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BVals.lean ====
/- The contents of the buffers that outlive a region, on core c, at each boundary between two items of the
   program: the launch memory; then with the first result array at `res0`; then with the results of the five
   host operations between the calls; then with the final result at what region 1's write-backs leave. -/
import proofs.«142497_g35089882808761_cont_8to1_b_317_16_alg».proof.Proof.BBody0
import proofs.«142497_g35089882808761_cont_8to1_b_317_16_alg».proof.Proof.BBody1
import proofs.«142497_g35089882808761_cont_8to1_b_317_16_alg».proof.Proof.Gen.Kernel.Regions
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m (c, b)
abbrev V0 : (c : Dev nD) → (b : Ref sig .tc) → Buf (Elt F) ((c : Thread nD τ).loc b) := fun c b => W0 m c b
/-- After region 0: the first result array at `res0`, everything else as launched. -/
def W1 (c : Dev nD) : Valuation τ sig (Elt F) := Function.update (W0 m c) main_v0 (res0 (V0 m) c)
abbrev V1 : (c : Dev nD) → (b : Ref sig .tc) → Buf (Elt F) ((c : Thread nD τ).loc b) := fun c b => W1 m c b
/-- After the host operations between the calls. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- What region 1 leaves in the final result array. -/
def res1 (c : Dev nD) : Buf (Elt F) ((c : Thread nD τ).loc main_v6) := (dat1 (V2 m) c).arrAt 6 cfg1.N
/-- After region 1. -/
def W3 (c : Dev nD) : Valuation τ sig (Elt F) := Function.update (W2 m c) main_v6 (res1 m c)
abbrev V3 : (c : Dev nD) → (b : Ref sig .tc) → Buf (Elt F) ((c : Thread nD τ).loc b) := fun c b => W3 m c b

theorem W1_v0 (c : Dev nD) : W1 m c main_v0 = res0 (V0 m) c := by unfold W1; exact Function.update_self ..
theorem W1_of_ne (c : Dev nD) (r : Ref sig .tc) (h : r ≠ main_v0) : W1 m c r = W0 m c r := by
  unfold W1
  exact Function.update_of_ne (StableHlo.devRef_ne_of_ne h : (Proc.devRef .tc r : DevRef τ sig) ≠ Proc.devRef .tc main_v0) ..
theorem W2_of (c : Dev nD) (r : Ref sig .tc) (h : r ∉ hostOps1_W) : W2 m c r = W1 m c r :=
  StableHlo.after_of_writes_sub hostOps1 _ hostOps1_writes h
theorem W3_v6 (c : Dev nD) : W3 m c main_v6 = res1 m c := by unfold W3; exact Function.update_self ..
theorem W3_of_ne (c : Dev nD) (r : Ref sig .tc) (h : r ≠ main_v6) : W3 m c r = W2 m c r := by
  unfold W3
  exact Function.update_of_ne (StableHlo.devRef_ne_of_ne h : (Proc.devRef .tc r : DevRef τ sig) ≠ Proc.devRef .tc main_v6) ..

/-- An argument array reaches the end as launched: no region and no host operation writes it. -/
theorem W3_arg (c : Dev nD) (r : Ref sig .tc) (h6 : r ≠ main_v6) (hW : r ∉ hostOps1_W) (h0 : r ≠ main_v0) :
    W3 m c r = m ((c : Thread nD τ).loc r) :=
  (W3_of_ne m c r h6).trans ((W2_of m c r hW).trans (W1_of_ne m c r h0))

end Cert.Kernel.Hand

end
-- ==== Proof.BLaunch.lean ====
/- The whole program as the pipeline library's segments: region 0, the five host operations between the
   calls, region 1. Between two segments core c holds every buffer that outlives a region whole, at
   contents NAMED here: the launch memory; then with the first result array at `res0`; then with the host
   operations' results; then with the final result at what region 1's write-backs leave. The launch
   theorem for relational proof data gives: every weakly fair execution terminates, nothing faulting, and
   the final memory holds exactly the last of these contents. -/
import proofs.«142497_g35089882808761_cont_8to1_b_317_16_alg».proof.Proof.BVals
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pallas_call has a prefetched table. -/
abbrev adm : (p : Fin 2) → (pcfgs (F := F) p).Adm := fun p => (cfgs p).toPCfg_adm

/-- Every pipeline's proof data, each at its region's entry contents: region 0 relational (its kept buffer is
    stepped, not named), region 1 exact and read relationally. -/
def rdats : (p : Fin 2) → (c : Dev nD) → RDat τ (Elt F) Unit ℕ (UR sig nD τ) ℕ (Pipeline.pin (pcfgs (F := F)) adm p) c
  | ⟨0, _⟩ => fun c => rdat0 (V0 m) c
  | ⟨1, _⟩ => fun c => (dat1 (V2 m) c).toR

/-- Exact data with the same arrays and shares (nothing else of it is read): what the library's lemma joining a
    region's arrays back into the unscoped buffers is stated over. -/
def xdats : (p : Fin 2) → (c : Dev nD) → Dat τ (Elt F) Unit ℕ (UR sig nD τ) ℕ (Pipeline.pin (pcfgs (F := F)) adm p) c
  | ⟨0, _⟩ => fun c => { A := (rdat0 (V0 m) c).A, after := fun _ _ _ => Classical.arbitrary _, Φ := (rdat0 (V0 m) c).Φ, q := fun _ => fullShare, owed := fun _ => 0 }
  | ⟨1, _⟩ => fun c => dat1 (V2 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)

/-- The host operations between the calls as a segment, from the contents `W1`. -/
abbrev hseg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W3 m c) ∗ ∃ r, prngReg c r)

/-! ## What each region's arrays hold at its exit -/

/-- Region 0: the x and W0 arrays as entered, the result array at `res0`: the contents `V1`. -/
theorem exit0 (c : Dev nD) (w : Fin cfg0.W) (G) (h : (rdat0 (V0 m) c).ArrAt w cfg0.N G) : G = V1 m c (Pipeline.arrRef spec0 w) := by
  match w with
  | ⟨0, _⟩ => exact (arrAt0_in (V0 m) c 0 rfl _ G h).trans (W1_of_ne m c main_arg0 (by decide)).symm
  | ⟨1, _⟩ => exact (arrAt0_in (V0 m) c 1 rfl _ G h).trans (W1_of_ne m c main_arg1 (by decide)).symm
  | ⟨2, _⟩ => exact (arrAt0_out (V0 m) c G h).trans (W1_v0 m c).symm

theorem hrest0 (c : Dev nD) : ∀ b, b ∉ Finset.univ.image (Pipeline.arrRef spec0) → V1 m c b = V0 m c b :=
  fun b hb => W1_of_ne m c b fun e => hb (Finset.mem_image.mpr ⟨2, Finset.mem_univ _, e.symm⟩)

/-- Region 1: its six input arrays as entered, the final result at `res1`: the contents `V3`. -/
theorem exit1 (c : Dev nD) (w : Fin cfg1.W) : (dat1 (V2 m) c).arrAt w cfg1.N = V3 m c (Pipeline.arrRef spec1 w) := by
  match w with
  | ⟨0, _⟩ => exact (((dat1 (V2 m) c).arrAt_in 0 rfl _).trans (A_eq1 (V2 m) c 0)).trans (W3_of_ne m c main_v0 (by decide)).symm
  | ⟨1, _⟩ => exact (((dat1 (V2 m) c).arrAt_in 1 rfl _).trans (A_eq1 (V2 m) c 1)).trans (W3_of_ne m c main_v1 (by decide)).symm
  | ⟨2, _⟩ => exact (((dat1 (V2 m) c).arrAt_in 2 rfl _).trans (A_eq1 (V2 m) c 2)).trans (W3_of_ne m c main_v2 (by decide)).symm
  | ⟨3, _⟩ => exact (((dat1 (V2 m) c).arrAt_in 3 rfl _).trans (A_eq1 (V2 m) c 3)).trans (W3_of_ne m c main_v3 (by decide)).symm
  | ⟨4, _⟩ => exact (((dat1 (V2 m) c).arrAt_in 4 rfl _).trans (A_eq1 (V2 m) c 4)).trans (W3_of_ne m c main_v4 (by decide)).symm
  | ⟨5, _⟩ => exact (((dat1 (V2 m) c).arrAt_in 5 rfl _).trans (A_eq1 (V2 m) c 5)).trans (W3_of_ne m c main_v5 (by decide)).symm
  | ⟨6, _⟩ => exact (W3_v6 m c).symm

theorem hrest1 (c : Dev nD) : ∀ b, b ∉ Finset.univ.image (Pipeline.arrRef spec1) → V3 m c b = V2 m c b :=
  fun b hb => W3_of_ne m c b fun e => hb (Finset.mem_image.mpr ⟨6, Finset.mem_univ _, e.symm⟩)

/-- Region 0's arrays at some contents they may hold at the exit ARE its arrays at `V1`. -/
theorem arraysAt0 (c : Dev nD) :
    ((rdats m 0 c).arraysAt cfg0.N : sProp 𝕄) ⊢ (xdats m 0 c).arrays fun w => V1 m c (Pipeline.arrRef spec0 w) := by
  unfold RDat.arraysAt Dat.arrays
  refine bigSep_mono fun w _ => ?_
  show (iprop(∃ G, ⌜(rdats m 0 c).ArrAt w cfg0.N G⌝ ∗ _) : sProp 𝕄) ⊢ _
  iintro ⟨%G, %hG, H⟩
  rw [exit0 m c w G hG] at *
  iexact H

theorem share0 (c : Dev nD) (w : Fin cfg0.W) : (rdats m 0 c).share w = fullShare := (rdats m 0 c).share_full (fun _ => rfl) w
theorem share1 (c : Dev nD) (w : Fin cfg1.W) : (rdats m 1 c).share w = fullShare := (rdats m 1 c).share_full (fun _ => rfl) w

/-! ## The regions as segments -/

set_option backward.isDefEq.respectTransparency.types false in
/-- REGION 0 over the thread state: entered from every unscoped buffer at `W0`, left at `W1`. Its arrays are split
    out of the unscoped buffers and put back at the exit contents; the generator register goes into the region's
    invariant and comes out; nothing is owed; the kernel has no semaphore of its own. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 (V0 m) c
  hwaits := Pipeline.RDat.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.RDat.arrays_of_unscopedBufs (p := 0) (pcfgs (F := F)) adm (rdats m) launch0.win launch0.arr_whole c
      (share0 m c) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (xdats m) ((xdats m 0 c).share_full fun _ => rfl)
      (V0 m c) (V1 m c) (fun w => V1 m c (Pipeline.arrRef spec0 w)) (fun _ => rfl) (hrest0 m c)
    rw [Pipeline.unscopedBufs_held] at hjoin
    iintro ⟨Ha, HO, HY, Hrest⟩
    ihave Ha' := (arraysAt0 m c) $$ Ha
    imodintro
    isplitl [Ha' Hrest]
    · iapply hjoin; isplitl [Ha'] <;> iassumption
    isplitl [HY]; · iexact HY
    unfold Pipeline.RDat.owesAt Pipeline.owesWithin
    icases HO with ⟨%W, -, HO⟩; iexists W; iexact HO

set_option backward.isDefEq.respectTransparency.types false in
/-- REGION 1 over the thread state: entered from every unscoped buffer at `W2`, left at `W3`. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).toR
  hwaits := Pipeline.RDat.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.RDat.arrays_of_unscopedBufs (p := 1) (pcfgs (F := F)) adm (rdats m) launch1.win launch1.arr_whole c
      (share1 m c) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (xdats m) ((xdats m 1 c).share_full fun _ => rfl)
      (V2 m c) (V3 m c) ((xdats m 1 c).arrAt · cfg1.N) (exit1 m c) (hrest1 m c)
    rw [Pipeline.unscopedBufs_held] at hjoin
    have harr : ((rdats m 1 c).arraysAt (Pipeline.pin (pcfgs (F := F)) adm 1).N : sProp 𝕄) = (xdats m 1 c).arrays ((xdats m 1 c).arrAt · cfg1.N) :=
      (dat1 (V2 m) c).toR_arraysAt_eq cfg1.N
    rw [harr]
    iintro ⟨Ha, HO, HY, Hrest⟩
    imodintro
    isplitl [Ha Hrest HY]
    · isplitl [Ha Hrest]
      · iapply hjoin; isplitl [Ha] <;> iassumption
      iexact HY
    unfold Pipeline.RDat.owesAt Pipeline.owesWithin
    icases HO with ⟨%W, -, HO⟩; iexists W; iexact HO

/-! ## The program as segments, and the launch -/

/-- The program's three items in order. -/
abbrev segs : List (Pipeline.RDat.Seg (pcfgs (F := F)) adm (rdats m) () defs₀ 𝒱₀ L lv) :=
  [ .region (reg0 m), .host (hseg1 m), .region (reg1 m) ]

/-- The printed program IS the run of the segments. -/
theorem main_run (c : Dev nD) : main (F := F) c = Pipeline.RDat.Seg.run (segs m) := (main_chain c).trans (by chain_rfl)

set_option backward.isDefEq.respectTransparency.types false in
/-- THE RUN: from any memory with zero counters, every weakly fair execution of the program terminates, nothing
    faulting, and the final memory holds every buffer that outlives a region at the last boundary's contents `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.RDat.θ_run_regions_kit (pcfgs (F := F)) adm (rdats m) () cellOf_inj emb₁ defs₀ 𝒱₀ L lv m ρ main (segs m)
    (fun c Q => by rw [main_run m c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.Kernel.Hand

end
-- ==== Proof.IAcc.lean ====
/- The layer-0 accumulator as pure mathematics, at any float instance.

   The layer-0 kernel visits the grid point (k, n), k = 0..7 outermost and n = 0..3, once each. At a
   point it multiplies the k-th 2048-column slab of x with the matching slab of rows
   1024 n .. 1024 n + 1023 of W0 and puts the product into columns 1024 n .. 1024 n + 1023 of a
   1024 x 4096 buffer it keeps between points: at k = 0 the product itself, later the old contents
   plus the product. Whatever the buffer held before the first point is overwritten block by block
   during k = 0, so after the 32 points block n holds the left-nested sum over k of the eight
   products, independent of the initial contents. -/
import proofs.«142497_g35089882808761_cont_8to1_b_317_16_alg».proof.Proof.Gen.KernelIdeal.Skeleton
import Idealize.ShloMosaic.Lib.Pipeline.FrameBody
import Idealize.ShloMosaic.Lib.Pipeline.Value
import Idealize.ShloMosaic.Lib.ValueIdx

noncomputable section

namespace Cert.KernelIdeal.Hand

open Idealize.ShloMosaic Cert.KernelIdeal Cert.KernelIdeal.Gen

variable {F : FTy → Type} [FloatOps F]

/-- The column block of the kept buffer that the point with coordinates `i` reads and rewrites. -/
abbrev r0 (i : grid0.Coords) : Rect S1024x4096 :=
  Rect.unit (s := S1024x4096) (k0_off1 i) S1024x1024.size (k0_off1_inb i)

/-- What one grid point makes of the kept buffer `Y`, given the point's x slab and W0 block. -/
def step0 (i : grid0.Coords) (x w : Vec F S1024x2048 .f32) (Y : Vec F S1024x4096 .f32) : Vec F S1024x4096 .f32 :=
  (r0 i).overlay Y (k0_pay1 i x w (View.ld Y (r0 i)))

/-- The product of one x slab with one W0 block (contracting the 2048 shared columns). -/
def part0 (x w : Vec F S1024x2048 .f32) : Vec F S1024x1024 .f32 :=
  matmul dot_S1024x2048_S1024x2048_S1024x1024_1_1_0_0_n_n none (truncf .bf16 x bitsLt_bf16_f32) (truncf .bf16 w bitsLt_bf16_f32)
    (constant S1024x1024 .f32 0x00000000#32)

/-- Column block `n` after the slabs `0 .. k`: the first product, then each later one added on the right.
    The point (k, n) is number `4 k + n` of the grid; `xb t`, `wb t` are the blocks it is handed. -/
def accum0 (xb wb : ℕ → Vec F S1024x2048 .f32) : ℕ → ℕ → Vec F S1024x1024 .f32
  | 0, n => part0 (xb n) (wb n)
  | k + 1, n => addf (accum0 xb wb k n) (part0 (xb (4 * (k + 1) + n)) (wb (4 * (k + 1) + n)))

/-- An index of the kept buffer, read inside its column block. -/
abbrev blockIx (j : S1024x4096.Idx) : S1024x1024.Idx :=
  ValueIdx.ix2 (⟨(j 0).val, (j 0).isLt⟩ : Fin 1024) (⟨(j 1).val % 1024, Nat.mod_lt _ (by decide)⟩ : Fin 1024)

/-- The kept buffer after all 32 points: column block `n` is `accum0 … 7 n`. -/
def final0 (xb wb : ℕ → Vec F S1024x2048 .f32) : Vec F S1024x4096 .f32 :=
  fun j => accum0 xb wb 7 ((j 1).val / 1024) (blockIx j)

/-- What is known of the kept buffer before point number `t` (after the points below `t`): every column
    block some point has already written holds the nested sum of the products so far; nothing is said
    of a block not yet written. -/
def Inv0 (xb wb : ℕ → Vec F S1024x2048 .f32) (t : ℕ) (Y : Vec F S1024x4096 .f32) : Prop :=
  ∀ j : S1024x4096.Idx, ∀ k : ℕ, 4 * k + (j 1).val / 1024 < t → t ≤ 4 * (k + 1) + (j 1).val / 1024 →
    Y j = accum0 xb wb k ((j 1).val / 1024) (blockIx j)

/-! ## The grid's points, the block's place, and what a point writes -/

/-- The layer-0 grid has 8 * 4 = 32 points. -/
private theorem grid0_N : grid0.N = 32 := by decide

/-- Point number `t` has coordinates `(k, n)` with `t = 4 k + n`. -/
private theorem coords_split : ∀ t : Fin grid0.N, t.val = 4 * (grid0.coords t 0).val + (grid0.coords t 1).val := by
  decide +kernel

private theorem coords1_lt (i : grid0.Coords) : (i 1).val < 4 := (i 1).isLt
private theorem coords0_lt (i : grid0.Coords) : (i 0).val < 8 := (i 0).isLt

/-- The block starts at row 0. -/
private theorem off1_0 (i : grid0.Coords) : k0_off1 i 0 = 0 := rfl

private theorem off1_1_aux : ∀ n : Fin 4, (Scalar.indexCast (Scalar.addi (Scalar.muli (BitVec.ofNat 32 n.val) 1024#32) 0#32)).toNat = 1024 * n.val := by
  decide

/-- The block starts at column `1024 n`: the 32-bit product does not wrap for `n < 4`. -/
private theorem off1_1 (i : grid0.Coords) : k0_off1 i 1 = 1024 * (i 1).val := off1_1_aux (i 1)

private theorem cmp_aux : ∀ k : Fin 8, (Scalar.cmpi .eq (BitVec.ofNat 32 k.val) 0#32 = 1) ↔ k.val = 0 := by
  decide

/-- At `k = 0` the point writes the product itself. -/
private theorem pay_zero (i : grid0.Coords) (hi : (i 0).val = 0) (x w : Vec F S1024x2048 .f32) (v : Vec F S1024x1024 .f32) :
    k0_pay1 i x w v = part0 x w := by
  have hc : Scalar.cmpi .eq (BitVec.ofNat 32 (i 0).val) 0#32 = 1 := (cmp_aux (i 0)).mpr hi
  simp only [k0_pay1, part0, Scalar.select, hc, if_true]

/-- At `k > 0` the point writes what it read plus the product. -/
private theorem pay_succ (i : grid0.Coords) (hi : (i 0).val ≠ 0) (x w : Vec F S1024x2048 .f32) (v : Vec F S1024x1024 .f32) :
    k0_pay1 i x w v = addf v (part0 x w) := by
  have hc : ¬ Scalar.cmpi .eq (BitVec.ofNat 32 (i 0).val) 0#32 = 1 := fun h => hi ((cmp_aux (i 0)).mp h)
  simp only [k0_pay1, part0, Scalar.select, hc, if_false, shapeCast_self]

/-- An index lies in the block of the point `i` exactly when its column block is the point's `n`. -/
private theorem mem_r0_iff (i : grid0.Coords) (j : S1024x4096.Idx) : j ∈ (r0 i).set ↔ (i 1).val = (j 1).val / 1024 := by
  have hn := coords1_lt i
  have hj1 : (j 1).val < 4096 := (j 1).isLt
  have hj0 : (j 0).val < 1024 := (j 0).isLt
  have hs0 : S1024x1024.size 0 = 1024 := rfl
  have hs1 : S1024x1024.size 1 = 1024 := rfl
  rw [Rect.mem_set_unit]
  constructor
  · intro h
    have h1 := h 1
    rw [off1_1, hs1] at h1
    omega
  · intro h
    refine Fin.forall_fin_two.mpr ⟨?_, ?_⟩
    · rw [off1_0, hs0]; omega
    · rw [off1_1, hs1]; omega

/-- An index of the block, placed in the buffer and read back inside the block, is itself. -/
private theorem emb_blockIx (i : grid0.Coords) (j : S1024x4096.Idx) (h : (i 1).val = (j 1).val / 1024) :
    (r0 i).emb (blockIx j) = j := by
  funext a
  apply Fin.ext
  rw [Rect.emb_apply]
  match a with
  | ⟨0, _⟩ =>
    show k0_off1 i 0 + 1 * (j 0).val = (j 0).val
    rw [off1_0]; omega
  | ⟨1, _⟩ =>
    show k0_off1 i 1 + 1 * ((j 1).val % 1024) = (j 1).val
    rw [off1_1]; omega

/-- The column of a placed block index: `1024 n` plus the index's own column. -/
private theorem idx_col (i : grid0.Coords) (x : S1024x1024.Idx) : ((r0 i).idx x 1).val = 1024 * (i 1).val + (x 1).val := by
  show k0_off1 i 1 + 1 * (x 1).val = _
  rw [off1_1]; omega

private theorem idx_row (i : grid0.Coords) (x : S1024x1024.Idx) : ((r0 i).idx x 0).val = (x 0).val := by
  show k0_off1 i 0 + 1 * (x 0).val = _
  rw [off1_0]; omega

/-- A placed block index lies in column block `n`. -/
private theorem idx_block (i : grid0.Coords) (x : S1024x1024.Idx) : ((r0 i).idx x 1).val / 1024 = (i 1).val := by
  have hx : (x 1).val < 1024 := (x 1).isLt
  rw [idx_col]; omega

/-- Read back inside the block, a placed block index is the index. -/
private theorem blockIx_idx (i : grid0.Coords) (x : S1024x1024.Idx) : blockIx ((r0 i).idx x) = x := by
  have hx : (x 1).val < 1024 := (x 1).isLt
  funext a
  apply Fin.ext
  match a with
  | ⟨0, _⟩ =>
    show ((r0 i).idx x 0).val = (x 0).val
    exact idx_row i x
  | ⟨1, _⟩ =>
    show ((r0 i).idx x 1).val % 1024 = (x 1).val
    rw [idx_col]; omega

/-! ## The three steps of the induction over the 32 points -/

theorem inv0_zero (xb wb : ℕ → Vec F S1024x2048 .f32) (Y : Vec F S1024x4096 .f32) : Inv0 xb wb 0 Y := by
  intro j k hlo _
  exact absurd hlo (Nat.not_lt_zero _)

theorem inv0_step (xb wb : ℕ → Vec F S1024x2048 .f32) (t : Fin grid0.N) (Y : Vec F S1024x4096 .f32)
    (h : Inv0 xb wb t.val Y) : Inv0 xb wb (t.val + 1) (step0 (grid0.coords t) (xb t.val) (wb t.val) Y) := by
  intro j k hlo hhi
  have hj1 : (j 1).val < 4096 := (j 1).isLt
  have hs := coords_split t
  have h1 := coords1_lt (grid0.coords t)
  have h0 := coords0_lt (grid0.coords t)
  generalize grid0.coords t = i at hs h1 h0 ⊢
  by_cases hn : (i 1).val = (j 1).val / 1024
  · -- the index is in the block this point rewrites: k is the point's k
    have hk : k = (i 0).val := by omega
    subst hk
    have hj := emb_blockIx i j hn
    have hov := Rect.overlay_emb (r0 i) Y (k0_pay1 i (xb t.val) (wb t.val) (View.ld Y (r0 i))) (blockIx j)
    rw [hj] at hov
    unfold step0
    rw [hov, ← hn]
    refine congrFun ?_ (blockIx j)
    rcases Nat.eq_zero_or_pos (i 0).val with hz | hp
    · -- first slab: the product itself
      have ht : t.val = (i 1).val := by omega
      rw [pay_zero i hz, hz, ht, accum0]
    · -- later slab: the block held the sum so far
      obtain ⟨k', hk'⟩ : ∃ k', (i 0).val = k' + 1 := ⟨(i 0).val - 1, by omega⟩
      have ht : t.val = 4 * (k' + 1) + (i 1).val := by omega
      have hld : View.ld Y (r0 i) = accum0 xb wb k' (i 1).val := by
        funext x
        have hx := h ((r0 i).idx x) k' (by rw [idx_block]; omega) (by rw [idx_block]; omega)
        rw [idx_block, blockIx_idx] at hx
        exact hx
      rw [pay_succ i (by omega), hk', accum0, hld, ht]
  · -- the index is in another block: untouched, and its k is as before
    unfold step0
    rw [Rect.overlay_of_not_mem _ _ _ (fun hm => hn ((mem_r0_iff i j).mp hm))]
    exact h j k (by omega) (by omega)

theorem inv0_final (xb wb : ℕ → Vec F S1024x2048 .f32) (Y : Vec F S1024x4096 .f32) (h : Inv0 xb wb 32 Y) :
    Y = final0 xb wb := by
  funext j
  have hj1 : (j 1).val < 4096 := (j 1).isLt
  exact h j 7 (by omega) (by omega)

end Cert.KernelIdeal.Hand

end
-- ==== Proof.IBody0.lean ====
/- Region 0 (the layer-0 matmul) as a pipeline: what its body does to its three staging buffers at a grid
   point, stated as RELATIONS (the x and W0 blocks are left as found; the kept 1024 x 4096 buffer goes
   from Y to step0 … Y), and what the region leaves in its result array: final0 of the blocks. -/
import proofs.«142497_g35089882808761_cont_8to1_b_317_16_alg».proof.Proof.IAcc
import proofs.«142497_g35089882808761_cont_8to1_b_317_16_alg».proof.Proof.Gen.KernelIdeal.Launch
import proofs.«142497_g35089882808761_cont_8to1_b_317_16_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

/-! ## The body's triple -/

theorem zero2 : (![0, 0] : Fin 2 → ℕ) = fun _ => 0 := by
  funext a; match a with | ⟨0, _⟩ => rfl | ⟨1, _⟩ => rfl

set_option maxHeartbeats 1000000 in
/-- The layer-0 body at coordinates `i`, on whole staging memrefs holding an x slab, a W0 block and the kept
    buffer at `Y`: it leaves the first two as they were and the third at `step0 i x w Y`. -/
theorem sound_kernel0 (c : Dev nD) (E : Set ℕ) (i : grid0.Coords)
    (arg2 : Memref sig .tc .vmem S1024x2048 .f32) (harg2 : arg2.IsWhole) (arg3 : Memref sig .tc .vmem S1024x2048 .f32) (harg3 : arg3.IsWhole)
    (arg4 : Memref sig .tc .vmem S1024x4096 .f32) (harg4 : arg4.IsWhole)
    (x w : Vec F S1024x2048 .f32) (Y : Vec F S1024x4096 .f32) (K : PUnit → sProp 𝕄) :
    iprop(owns (c : Thread nD τ) arg2 fullShare x ∗ owns (c : Thread nD τ) arg3 fullShare w ∗ owns (c : Thread nD τ) arg4 fullShare Y
        ∗ (iprop(owns (c : Thread nD τ) arg2 fullShare x ∗ owns (c : Thread nD τ) arg3 fullShare w
            ∗ owns (c : Thread nD τ) arg4 fullShare (step0 i x w Y)) -∗ K ⟨⟩))
      ⊢ wp frame (wpE (defs₀ (F := F)) Variants.none c none) E (cc0__layer0_kernel i arg2 harg2 arg3 harg3 arg4 harg4) K := by
  simp only [cc0__layer0_kernel_eq_skeleton]; unfold cc0__layer0_kernel_skel
  unfold owns
  iintro ⟨⟨%f0, %hf0, H0⟩, ⟨%f1, %hf1, H1⟩, ⟨%f2, %hf2, H2⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the one store, read back: its payload on the column block, the old contents off it
  have e0 : View.readAt (Elt F) arg2.view (Rect.unit (s := S1024x2048) ![0, 0] S1024x2048.size inb_S1024x2048_S1024x2048_0_0).toLoadRect f0
      = View.read (Elt F) arg2.view f0 :=
    (View.readAt_eq_ld arg2.view f0 _).trans (View.ld_unit_zero (S := S1024x2048) zero2 _ _)
  have e1 : View.readAt (Elt F) arg3.view (Rect.unit (s := S1024x2048) ![0, 0] S1024x2048.size inb_S1024x2048_S1024x2048_0_0).toLoadRect f1
      = View.read (Elt F) arg3.view f1 :=
    (View.readAt_eq_ld arg3.view f1 _).trans (View.ld_unit_zero (S := S1024x2048) zero2 _ _)
  rw [e0, e1]
  funext j
  unfold step0
  by_cases hj : j ∈ (r0 i).set
  · obtain ⟨y, rfl⟩ : ∃ y, (r0 i).emb y = j := (r0 i).exists_idx_of_mem hj
    rw [View.read_writes_cons_emb, Rect.overlay_emb]
    rfl
  · rw [Rect.overlay_of_not_mem _ _ _ hj, View.writes_cons, View.writes_nil,
      View.read_slice_write_of_not_mem (r0 i) _ _ _ (by rwa [Rect.map_emb_univ])]

variable (V : (c : Dev nD) → (b : Ref sig .tc) → Buf (Elt F) ((c : Thread nD τ).loc b))

/-! ## The proof data -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem lt_N0 (t : ℕ) : t % 32 < cfg0.N := by
  rw [show cfg0.N = 32 from N_0]; exact Nat.mod_lt _ (by decide)

/-- The x slab and the W0 block handed to the point numbered `t`. -/
def xb0 (c : Dev nD) (t : ℕ) : Vec F S1024x2048 .f32 := iblk0 V c 0 ⟨t % 32, lt_N0 t⟩
def wb0 (c : Dev nD) (t : ℕ) : Vec F S1024x2048 .f32 := iblk0 V c 1 ⟨t % 32, lt_N0 t⟩

/-- Region 0's proof data on core `c`: the arrays as the region finds them; the x and W0 staging buffers
    left as the body found them; the kept buffer stepped by `step0` at the point's blocks. -/
def rdat0 (c : Dev nD) : RDat τ (Elt F) Unit ℕ (UR sig nD τ) ℕ cfg0 c where
  A w := V c (Pipeline.arrRef spec0 w)
  after w t Y X := match w with
    | ⟨0, _⟩ => X = Y
    | ⟨1, _⟩ => X = Y
    | ⟨2, _⟩ => X = step0 (grid0.coords t) (iblk0 V c 0 t) (iblk0 V c 1 t) Y
  Φ _ := Pipeline.ΦA spec0 c
  q _ := fullShare
  owed _ := 0

theorem A_eq0 (c : Dev nD) (w : Fin cfg0.W) : (rdat0 V c).A w = V c (Pipeline.arrRef spec0 w) := by
  dsimp only [rdat0]

/-! ## What the body finds in its staging buffers -/

/-- The x slab's and the W0 block's staging buffers hold their blocks at every point, fetched there or not. -/
theorem finds0_x (c : Dev nD) (t : Fin cfg0.N) (Y) (h : (rdat0 V c).Finds 0 t Y) : Y = iblk0 V c 0 t := by
  obtain ⟨d, rfl⟩ := RDat.finds_in_eq_fetched (rdat0 V c) 0 rfl (fun _ _ _ => rfl)
    (fun t Y X h => by dsimp only [rdat0] at h; exact h) t Y h
  unfold RDat.fetched RDat.blockOf iblk0; rw [A_eq0]; rfl

theorem finds0_w (c : Dev nD) (t : Fin cfg0.N) (Y) (h : (rdat0 V c).Finds 1 t Y) : Y = iblk0 V c 1 t := by
  obtain ⟨d, rfl⟩ := RDat.finds_in_eq_fetched (rdat0 V c) 1 rfl (fun _ _ _ => rfl)
    (fun t Y X h => by dsimp only [rdat0] at h; exact h) t Y h
  unfold RDat.fetched RDat.blockOf iblk0; rw [A_eq0]; rfl

theorem fin_mod (t : Fin cfg0.N) : (⟨t.val % 32, lt_N0 t.val⟩ : Fin cfg0.N) = t :=
  Fin.ext (Nat.mod_eq_of_lt (t.isLt.trans_eq N_0))

theorem xb0_val (c : Dev nD) (t : Fin cfg0.N) : xb0 V c t.val = iblk0 V c 0 t := by unfold xb0; rw [fin_mod]
theorem wb0_val (c : Dev nD) (t : Fin cfg0.N) : wb0 V c t.val = iblk0 V c 1 t := by unfold wb0; rw [fin_mod]

/-- The kept buffer never leaves its staging buffer before the last point, so what the body finds there at
    point `t` is what the points before made of whatever it held at first. -/
theorem finds0_out (c : Dev nD) : ∀ (t : Fin cfg0.N) (Y), (rdat0 V c).Finds 2 t Y → Inv0 (xb0 V c) (wb0 V c) t.val Y := by
  intro t
  induction hn : t.val using Nat.strong_induction_on generalizing t with
  | _ n ih =>
    subst hn; intro Y hY
    by_cases ht : t.val = 0
    · rw [ht]; exact inv0_zero _ _ _
    · have hf : (cfg0.win 2).fetch t = false := (cfg0.win 2).fetch_out rfl t
      have htN : t.val < 32 := t.isLt.trans_eq N_0
      rcases ((rdat0 V c).finds_of_pos hf ht Y).mp hY with hfl | ⟨Y', hY', hR⟩
      · have := (flush0_2 ⟨t.val - 1, Nat.lt_of_le_of_lt (Nat.sub_le _ _) t.isLt⟩).mp hfl
        simp only at this; omega
      · dsimp only [rdat0] at hR
        have ih' := ih (t.val - 1) (by omega) ⟨t.val - 1, Nat.lt_of_le_of_lt (Nat.sub_le _ _) t.isLt⟩ rfl Y' hY'
        have hs := inv0_step (xb0 V c) (wb0 V c) ⟨t.val - 1, Nat.lt_of_le_of_lt (Nat.sub_le _ _) t.isLt⟩ Y' ih'
        rw [xb0_val, wb0_val, ← hR] at hs
        have e : t.val - 1 + 1 = t.val := by omega
        simp only [e] at hs
        exact hs

theorem leaves0_out (c : Dev nD) (t : Fin cfg0.N) (X) (h : (rdat0 V c).Leaves 2 t X) : Inv0 (xb0 V c) (wb0 V c) (t.val + 1) X := by
  obtain ⟨Y, hY, hR⟩ := h
  dsimp only [rdat0] at hR
  have hs := inv0_step (xb0 V c) (wb0 V c) t Y (finds0_out V c t Y hY)
  rw [xb0_val, wb0_val, ← hR] at hs
  exact hs

/-! ## What the region leaves in its arrays -/

/-- The result array after the region: `final0` of the blocks the points were handed. -/
def res0 (c : Dev nD) : Buf (Elt F) ((c : Thread nD τ).loc main_v0) := final0 (xb0 V c) (wb0 V c)

/-- The x and W0 arrays are never written. -/
theorem arrAt0_in (c : Dev nD) (w : Fin cfg0.W) (hw : (cfg0.win w).isOut = false) (n : ℕ) (G)
    (h : (rdat0 V c).ArrAt w n G) : G = V c (Pipeline.arrRef spec0 w) := by
  rw [RDat.ArrAt_in (rdat0 V c) w hw n] at h; exact h.trans (A_eq0 V c w)

/-- Before the last point nothing is written back to the result array. -/
theorem arrAt0_out_lt (c : Dev nD) : ∀ n : ℕ, n ≤ 31 → (rdat0 V c).ArrAt 2 n = fun G => G = (rdat0 V c).A 2
  | 0, _ => rfl
  | n + 1, hn => by
    have hlt : n < cfg0.N := by rw [show cfg0.N = 32 from N_0]; omega
    rw [RDat.ArrAt_succ (rdat0 V c) 2 ⟨n, hlt⟩, if_neg, arrAt0_out_lt c n (by omega)]
    intro hfl
    have := (flush0_2 ⟨n, hlt⟩).mp hfl
    simp only at this; omega

/-- The result window's block is the whole array at every point. -/
theorem idx0_out : ∀ t : Fin cfg0.N, win0_2.index t (0 : Fin 2) = 0 ∧ win0_2.index t (1 : Fin 2) = 0 :=
  (by decide +kernel : ∀ t : Fin grid0.N, _)

/-- The last point's write-back puts the whole kept buffer into the result array. -/
theorem arrAt0_out (c : Dev nD) (G) (h : (rdat0 V c).ArrAt 2 cfg0.N G) : G = res0 V c := by
  have h31 : (31 : ℕ) < cfg0.N := by rw [show cfg0.N = 32 from N_0]; decide
  have hN : cfg0.N = (⟨31, h31⟩ : Fin cfg0.N).val + 1 := N_0
  rw [hN, RDat.ArrAt_succ (rdat0 V c) 2 ⟨31, h31⟩, if_pos ((flush0_2 ⟨31, h31⟩).mpr rfl), arrAt0_out_lt V c 31 (le_refl _)] at h
  obtain ⟨G₀, X, rfl, hX, rfl⟩ := h
  have hfin := inv0_final (xb0 V c) (wb0 V c) X (leaves0_out V c ⟨31, h31⟩ X hX)
  subst hfin
  unfold res0
  funext i
  obtain ⟨z0, z1⟩ := idx0_out ⟨31, h31⟩
  have hi : i ∈ ((cfg0.win 2).blk ⟨31, h31⟩).view.set := by
    show i ∈ ((View.whole main_v0).slice (win0_2.rect ⟨31, h31⟩)).set
    rw [View.set_slice_whole, Rect.mem_set_unit]
    intro a
    match a with
    | ⟨0, _⟩ =>
      show win0_2.index ⟨31, h31⟩ (0 : Fin 2) * 1024 ≤ (i 0).val ∧ (i 0).val < win0_2.index ⟨31, h31⟩ (0 : Fin 2) * 1024 + 1024
      have hb : (i 0).val < 1024 := (i 0).isLt
      rw [z0]; omega
    | ⟨1, _⟩ =>
      show win0_2.index ⟨31, h31⟩ (1 : Fin 2) * 4096 ≤ (i 1).val ∧ (i 1).val < win0_2.index ⟨31, h31⟩ (1 : Fin 2) * 4096 + 4096
      have hb : (i 1).val < 4096 := (i 1).isLt
      rw [z1]; omega
  obtain ⟨y, rfl⟩ := View.exists_emb_of_mem_set _ hi
  rw [View.write_emb_of_mem _ _ (Finset.mem_univ y)]
  show final0 (xb0 V c) (wb0 V c) y = final0 (xb0 V c) (wb0 V c) (((cfg0.win 2).blk ⟨31, h31⟩).view.emb y)
  congr 1
  funext a; apply Fin.ext
  match a with
  | ⟨0, _⟩ => show (y 0).val = win0_2.index ⟨31, h31⟩ (0 : Fin 2) * 1024 + 1 * (y 0).val; rw [z0]; omega
  | ⟨1, _⟩ => show (y 1).val = win0_2.index ⟨31, h31⟩ (1 : Fin 2) * 4096 + 1 * (y 1).val; rw [z1]; omega

/-! ## The body obligation -/

set_option maxHeartbeats 1000000 in
theorem body_obligation0 (c : Dev nD) : (rdat0 (F := F) V c).BodyObligation (defs₀ (F := F)) Variants.none () Set.univ := fun t Y hY => by
  rw [bigSep_W0, bigSep_W0]
  have h0 := finds0_x V c t (Y 0) (hY 0)
  have h1 := finds0_w V c t (Y 1) (hY 1)
  show _ ⊢ wp frame (wpE (defs₀ (F := F)) Variants.none c none) Set.univ (bodyAt0 t) _
  unfold bodyAt0
  rw [show (rdat0 V c).Φ t.succ = (rdat0 V c).Φ t.castSucc from rfl,
    show (rdat0 V c).owesAt () t.succ = (rdat0 V c).owesAt () t.castSucc from rfl]
  iintro ⟨HΦ, Ho, H0, H1, H2⟩
  iapply (sound_kernel0 c Set.univ (grid0.coords t) _ _ _ _ _ _ (Y 0) (Y 1) (Y 2) _)
  isplitl [H0]; · iexact H0
  isplitl [H1]; · iexact H1
  isplitl [H2]; · iexact H2
  iintro ⟨H0, H1, H2⟩
  isplitl [HΦ]; · iexact HΦ
  isplitl [Ho]; · iexact Ho
  isplitl [H0]
  · iexists (Y 0); isplitr
    · ipureintro; dsimp only [rdat0]
    · iexact H0
  isplitl [H1]
  · iexists (Y 1); isplitr
    · ipureintro; dsimp only [rdat0]
    · iexact H1
  iexists (step0 (grid0.coords t) (Y 0) (Y 1) (Y 2)); isplitr
  · ipureintro; dsimp only [rdat0]; rw [h0, h1]
  · iexact H2

end Cert.KernelIdeal.Hand

end
-- ==== Proof.IBody1.lean ====
/- The tail kernel (the second pallas_call) as a pipeline body, at any float instance.

   The call runs a grid of four points. At a point it is handed a 256 x 4096 slab of the previous
   layer's result (a different slab at each point) together with five arrays that never change: the
   two remaining weight matrices and the three bias rows. From them it computes
   relu(relu(slab + b0) W1ᵀ + b1) W2ᵀ + b2, a 256 x 256 block, and stores it over the whole of its
   output buffer; the old contents of that buffer are loaded once but never used. So what the body
   leaves in the output buffer is a closed function of the six input blocks, and every input buffer is
   left as found. This file states that as the pipeline's proof data and proves the body obligation. -/
import proofs.«142497_g35089882808761_cont_8to1_b_317_16_alg».proof.Proof.Gen.KernelIdeal.Skeleton
import proofs.«142497_g35089882808761_cont_8to1_b_317_16_alg».proof.Proof.Gen.KernelIdeal.Launch
import proofs.«142497_g35089882808761_cont_8to1_b_317_16_alg».proof.Proof.Gen.KernelIdeal.Points
import Idealize.ShloMosaic.Lib.Pipeline.FrameBody
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An input buffer holds its block, fetched at the point or not

The slab is fetched at every point. The five constant arrays are fetched at the first point only; at a
later point their block index has not moved and the body left the buffer alone, so the buffer still
holds the block. One library lemma covers both cases. -/

/-- Input window 0 (the 256 x 4096 slab of the previous layer's result, a new one at every point): its current staging buffer holds its block at every point, for any
    proof data over the arrays `V` whose body leaves that block where it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl)
      (fun t => by rw [hafter]; unfold Dat.blockOf iblk1; rw [hA]; try rfl) t d).trans
    (by unfold Dat.fetched Dat.blockOf iblk1; rw [hA]; try rfl)

/-- Input window 1 (the whole 1024 x 4096 weight of the middle layer): its current staging buffer holds its block at every point, for any
    proof data over the arrays `V` whose body leaves that block where it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl)
      (fun t => by rw [hafter]; unfold Dat.blockOf iblk1; rw [hA]; try rfl) t d).trans
    (by unfold Dat.fetched Dat.blockOf iblk1; rw [hA]; try rfl)

/-- Input window 2 (the whole 256 x 1024 weight of the last layer): its current staging buffer holds its block at every point, for any
    proof data over the arrays `V` whose body leaves that block where it found it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl)
      (fun t => by rw [hafter]; unfold Dat.blockOf iblk1; rw [hA]; try rfl) t d).trans
    (by unfold Dat.fetched Dat.blockOf iblk1; rw [hA]; try rfl)

/-- Input window 3 (the first bias row): its current staging buffer holds its block at every point, for any
    proof data over the arrays `V` whose body leaves that block where it found it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl)
      (fun t => by rw [hafter]; unfold Dat.blockOf iblk1; rw [hA]; try rfl) t d).trans
    (by unfold Dat.fetched Dat.blockOf iblk1; rw [hA]; try rfl)

/-- Input window 4 (the second bias row): its current staging buffer holds its block at every point, for any
    proof data over the arrays `V` whose body leaves that block where it found it. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl)
      (fun t => by rw [hafter]; unfold Dat.blockOf iblk1; rw [hA]; try rfl) t d).trans
    (by unfold Dat.fetched Dat.blockOf iblk1; rw [hA]; try rfl)

/-- Input window 5 (the third bias row): its current staging buffer holds its block at every point, for any
    proof data over the arrays `V` whose body leaves that block where it found it. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl)
      (fun t => by rw [hafter]; unfold Dat.blockOf iblk1; rw [hA]; try rfl) t d).trans
    (by unfold Dat.fetched Dat.blockOf iblk1; rw [hA]; try rfl)

/-! ## The body's accesses: each buffer through the rectangle that is the whole of it -/

abbrev rIn0 : Rect S256x4096 := Rect.unit (s := S256x4096) ![0, 0] S256x4096.size inb_S256x4096_S256x4096_0_0
abbrev rIn1 : Rect S1024x4096 := Rect.unit (s := S1024x4096) ![0, 0] S1024x4096.size inb_S1024x4096_S1024x4096_0_0
abbrev rIn2 : Rect S256x1024 := Rect.unit (s := S256x1024) ![0, 0] S256x1024.size inb_S256x1024_S256x1024_0_0
abbrev rIn3 : Rect S1x4096 := Rect.unit (s := S1x4096) ![0, 0] S1x4096.size inb_S1x4096_S1x4096_0_0
abbrev rIn4 : Rect S1x1024 := Rect.unit (s := S1x1024) ![0, 0] S1x1024.size inb_S1x1024_S1x1024_0_0
abbrev rIn5 : Rect S1x256 := Rect.unit (s := S1x256) ![0, 0] S1x256.size inb_S1x256_S1x256_0_0
abbrev rOut : Rect S256x256 := Rect.unit (s := S256x256) ![0, 0] S256x256.size inb_S256x256_S256x256_0_0

/-! ## What the body leaves in the output buffer -/

/-- The output buffer after the body, from the six input blocks: the one store's payload laid over the whole
    block. The payload takes the slab, the first bias, the middle weight, the second bias, the last weight
    and the third bias, in that order. -/
def out1_6 (x0 : Vec F S256x4096 .f32) (x1 : Vec F S1024x4096 .bf16) (x2 : Vec F S256x1024 .bf16)
    (x3 : Vec F S1x4096 .f32) (x4 : Vec F S1x1024 .f32) (x5 : Vec F S1x256 .f32) : Vec F S256x256 .f32 :=
  View.canon [⟨rOut, k1_pay1 (View.ld x0 rIn0) (View.ld x3 rIn3) (View.ld x1 rIn1) (View.ld x4 rIn4) (View.ld x2 rIn2) (View.ld x5 rIn5)⟩]

/-- The one store's rectangle is the whole block, so every index of the block lies under it. -/
theorem cover1_6 (p0 : Vec F S256x256 .f32) (y : S256x256.Idx) :
    ∃ pc ∈ ([⟨rOut, p0⟩] : List (View.Piece (Elt F) S256x256 .f32)), y ∈ pc.1.set :=
  View.cover_of_tiled [⟨rOut, p0⟩] S256x256.size (by rfl) y

/-! ## The body's triple -/

set_option maxHeartbeats 1000000 in
/-- The kernel body on whole staging memrefs, the six inputs' at read contents `x0 … x5` and the output's at
    anything, runs to a continuation that holds the inputs' as they were and the output's at `out1_6` of
    them. -/
theorem sound_kernel1 (c : Dev nD) (E : Set ℕ) (i : grid1.Coords)
    (arg1 : Memref sig .tc .vmem S256x4096 .f32) (harg1 : arg1.IsWhole) (arg2 : Memref sig .tc .vmem S1024x4096 .bf16) (harg2 : arg2.IsWhole)
    (arg3 : Memref sig .tc .vmem S256x1024 .bf16) (harg3 : arg3.IsWhole) (arg4 : Memref sig .tc .vmem S1x4096 .f32) (harg4 : arg4.IsWhole)
    (arg5 : Memref sig .tc .vmem S1x1024 .f32) (harg5 : arg5.IsWhole) (arg6 : Memref sig .tc .vmem S1x256 .f32) (harg6 : arg6.IsWhole)
    (arg7 : Memref sig .tc .vmem S256x256 .f32) (harg7 : arg7.IsWhole)
    (x0 : Vec F S256x4096 .f32) (x1 : Vec F S1024x4096 .bf16) (x2 : Vec F S256x1024 .bf16)
    (x3 : Vec F S1x4096 .f32) (x4 : Vec F S1x1024 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E
          (cc1__tail_kernel i arg1 harg1 arg2 harg2 arg3 harg3 arg4 harg4 arg5 harg5 arg6 harg6 arg7 harg7) K := by
  simp only [cc1__tail_kernel_eq_skeleton]; unfold cc1__tail_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of the call on core `c`: the arrays as the region finds them; after the body at point `t`
    each input's buffer at its block and the output's at `out1_6` of the six blocks; the invariant is the
    untouched rest of the core; nothing is owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant
    and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IVals.lean ====
/- The contents of the buffers that outlive a region, on core c, at each boundary between two items of the
   program: the launch memory; then with the first result array at `res0`; then with the results of the five
   host operations between the calls; then with the final result at what region 1's write-backs leave. -/
import proofs.«142497_g35089882808761_cont_8to1_b_317_16_alg».proof.Proof.IBody0
import proofs.«142497_g35089882808761_cont_8to1_b_317_16_alg».proof.Proof.IBody1
import proofs.«142497_g35089882808761_cont_8to1_b_317_16_alg».proof.Proof.Gen.KernelIdeal.Regions
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m (c, b)
abbrev V0 : (c : Dev nD) → (b : Ref sig .tc) → Buf (Elt F) ((c : Thread nD τ).loc b) := fun c b => W0 m c b
/-- After region 0: the first result array at `res0`, everything else as launched. -/
def W1 (c : Dev nD) : Valuation τ sig (Elt F) := Function.update (W0 m c) main_v0 (res0 (V0 m) c)
abbrev V1 : (c : Dev nD) → (b : Ref sig .tc) → Buf (Elt F) ((c : Thread nD τ).loc b) := fun c b => W1 m c b
/-- After the host operations between the calls. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- What region 1 leaves in the final result array. -/
def res1 (c : Dev nD) : Buf (Elt F) ((c : Thread nD τ).loc main_v6) := (dat1 (V2 m) c).arrAt 6 cfg1.N
/-- After region 1. -/
def W3 (c : Dev nD) : Valuation τ sig (Elt F) := Function.update (W2 m c) main_v6 (res1 m c)
abbrev V3 : (c : Dev nD) → (b : Ref sig .tc) → Buf (Elt F) ((c : Thread nD τ).loc b) := fun c b => W3 m c b

theorem W1_v0 (c : Dev nD) : W1 m c main_v0 = res0 (V0 m) c := by unfold W1; exact Function.update_self ..
theorem W1_of_ne (c : Dev nD) (r : Ref sig .tc) (h : r ≠ main_v0) : W1 m c r = W0 m c r := by
  unfold W1
  exact Function.update_of_ne (StableHlo.devRef_ne_of_ne h : (Proc.devRef .tc r : DevRef τ sig) ≠ Proc.devRef .tc main_v0) ..
theorem W2_of (c : Dev nD) (r : Ref sig .tc) (h : r ∉ hostOps1_W) : W2 m c r = W1 m c r :=
  StableHlo.after_of_writes_sub hostOps1 _ hostOps1_writes h
theorem W3_v6 (c : Dev nD) : W3 m c main_v6 = res1 m c := by unfold W3; exact Function.update_self ..
theorem W3_of_ne (c : Dev nD) (r : Ref sig .tc) (h : r ≠ main_v6) : W3 m c r = W2 m c r := by
  unfold W3
  exact Function.update_of_ne (StableHlo.devRef_ne_of_ne h : (Proc.devRef .tc r : DevRef τ sig) ≠ Proc.devRef .tc main_v6) ..

/-- An argument array reaches the end as launched: no region and no host operation writes it. -/
theorem W3_arg (c : Dev nD) (r : Ref sig .tc) (h6 : r ≠ main_v6) (hW : r ∉ hostOps1_W) (h0 : r ≠ main_v0) :
    W3 m c r = m ((c : Thread nD τ).loc r) :=
  (W3_of_ne m c r h6).trans ((W2_of m c r hW).trans (W1_of_ne m c r h0))

end Cert.KernelIdeal.Hand

end
-- ==== Proof.ILaunch.lean ====
/- The whole program as the pipeline library's segments: region 0, the five host operations between the
   calls, region 1. Between two segments core c holds every buffer that outlives a region whole, at
   contents NAMED here: the launch memory; then with the first result array at `res0`; then with the host
   operations' results; then with the final result at what region 1's write-backs leave. The launch
   theorem for relational proof data gives: every weakly fair execution terminates, nothing faulting, and
   the final memory holds exactly the last of these contents. -/
import proofs.«142497_g35089882808761_cont_8to1_b_317_16_alg».proof.Proof.IVals
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pallas_call has a prefetched table. -/
abbrev adm : (p : Fin 2) → (pcfgs (F := F) p).Adm := fun p => (cfgs p).toPCfg_adm

/-- Every pipeline's proof data, each at its region's entry contents: region 0 relational (its kept buffer is
    stepped, not named), region 1 exact and read relationally. -/
def rdats : (p : Fin 2) → (c : Dev nD) → RDat τ (Elt F) Unit ℕ (UR sig nD τ) ℕ (Pipeline.pin (pcfgs (F := F)) adm p) c
  | ⟨0, _⟩ => fun c => rdat0 (V0 m) c
  | ⟨1, _⟩ => fun c => (dat1 (V2 m) c).toR

/-- Exact data with the same arrays and shares (nothing else of it is read): what the library's lemma joining a
    region's arrays back into the unscoped buffers is stated over. -/
def xdats : (p : Fin 2) → (c : Dev nD) → Dat τ (Elt F) Unit ℕ (UR sig nD τ) ℕ (Pipeline.pin (pcfgs (F := F)) adm p) c
  | ⟨0, _⟩ => fun c => { A := (rdat0 (V0 m) c).A, after := fun _ _ _ => Classical.arbitrary _, Φ := (rdat0 (V0 m) c).Φ, q := fun _ => fullShare, owed := fun _ => 0 }
  | ⟨1, _⟩ => fun c => dat1 (V2 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)

/-- The host operations between the calls as a segment, from the contents `W1`. -/
abbrev hseg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W3 m c) ∗ ∃ r, prngReg c r)

/-! ## What each region's arrays hold at its exit -/

/-- Region 0: the x and W0 arrays as entered, the result array at `res0`: the contents `V1`. -/
theorem exit0 (c : Dev nD) (w : Fin cfg0.W) (G) (h : (rdat0 (V0 m) c).ArrAt w cfg0.N G) : G = V1 m c (Pipeline.arrRef spec0 w) := by
  match w with
  | ⟨0, _⟩ => exact (arrAt0_in (V0 m) c 0 rfl _ G h).trans (W1_of_ne m c main_arg0 (by decide)).symm
  | ⟨1, _⟩ => exact (arrAt0_in (V0 m) c 1 rfl _ G h).trans (W1_of_ne m c main_arg1 (by decide)).symm
  | ⟨2, _⟩ => exact (arrAt0_out (V0 m) c G h).trans (W1_v0 m c).symm

theorem hrest0 (c : Dev nD) : ∀ b, b ∉ Finset.univ.image (Pipeline.arrRef spec0) → V1 m c b = V0 m c b :=
  fun b hb => W1_of_ne m c b fun e => hb (Finset.mem_image.mpr ⟨2, Finset.mem_univ _, e.symm⟩)

/-- Region 1: its six input arrays as entered, the final result at `res1`: the contents `V3`. -/
theorem exit1 (c : Dev nD) (w : Fin cfg1.W) : (dat1 (V2 m) c).arrAt w cfg1.N = V3 m c (Pipeline.arrRef spec1 w) := by
  match w with
  | ⟨0, _⟩ => exact (((dat1 (V2 m) c).arrAt_in 0 rfl _).trans (A_eq1 (V2 m) c 0)).trans (W3_of_ne m c main_v0 (by decide)).symm
  | ⟨1, _⟩ => exact (((dat1 (V2 m) c).arrAt_in 1 rfl _).trans (A_eq1 (V2 m) c 1)).trans (W3_of_ne m c main_v1 (by decide)).symm
  | ⟨2, _⟩ => exact (((dat1 (V2 m) c).arrAt_in 2 rfl _).trans (A_eq1 (V2 m) c 2)).trans (W3_of_ne m c main_v2 (by decide)).symm
  | ⟨3, _⟩ => exact (((dat1 (V2 m) c).arrAt_in 3 rfl _).trans (A_eq1 (V2 m) c 3)).trans (W3_of_ne m c main_v3 (by decide)).symm
  | ⟨4, _⟩ => exact (((dat1 (V2 m) c).arrAt_in 4 rfl _).trans (A_eq1 (V2 m) c 4)).trans (W3_of_ne m c main_v4 (by decide)).symm
  | ⟨5, _⟩ => exact (((dat1 (V2 m) c).arrAt_in 5 rfl _).trans (A_eq1 (V2 m) c 5)).trans (W3_of_ne m c main_v5 (by decide)).symm
  | ⟨6, _⟩ => exact (W3_v6 m c).symm

theorem hrest1 (c : Dev nD) : ∀ b, b ∉ Finset.univ.image (Pipeline.arrRef spec1) → V3 m c b = V2 m c b :=
  fun b hb => W3_of_ne m c b fun e => hb (Finset.mem_image.mpr ⟨6, Finset.mem_univ _, e.symm⟩)

/-- Region 0's arrays at some contents they may hold at the exit ARE its arrays at `V1`. -/
theorem arraysAt0 (c : Dev nD) :
    ((rdats m 0 c).arraysAt cfg0.N : sProp 𝕄) ⊢ (xdats m 0 c).arrays fun w => V1 m c (Pipeline.arrRef spec0 w) := by
  unfold RDat.arraysAt Dat.arrays
  refine bigSep_mono fun w _ => ?_
  show (iprop(∃ G, ⌜(rdats m 0 c).ArrAt w cfg0.N G⌝ ∗ _) : sProp 𝕄) ⊢ _
  iintro ⟨%G, %hG, H⟩
  rw [exit0 m c w G hG] at *
  iexact H

theorem share0 (c : Dev nD) (w : Fin cfg0.W) : (rdats m 0 c).share w = fullShare := (rdats m 0 c).share_full (fun _ => rfl) w
theorem share1 (c : Dev nD) (w : Fin cfg1.W) : (rdats m 1 c).share w = fullShare := (rdats m 1 c).share_full (fun _ => rfl) w

/-! ## The regions as segments -/

set_option backward.isDefEq.respectTransparency.types false in
/-- REGION 0 over the thread state: entered from every unscoped buffer at `W0`, left at `W1`. Its arrays are split
    out of the unscoped buffers and put back at the exit contents; the generator register goes into the region's
    invariant and comes out; nothing is owed; the kernel has no semaphore of its own. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 (V0 m) c
  hwaits := Pipeline.RDat.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.RDat.arrays_of_unscopedBufs (p := 0) (pcfgs (F := F)) adm (rdats m) launch0.win launch0.arr_whole c
      (share0 m c) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (xdats m) ((xdats m 0 c).share_full fun _ => rfl)
      (V0 m c) (V1 m c) (fun w => V1 m c (Pipeline.arrRef spec0 w)) (fun _ => rfl) (hrest0 m c)
    rw [Pipeline.unscopedBufs_held] at hjoin
    iintro ⟨Ha, HO, HY, Hrest⟩
    ihave Ha' := (arraysAt0 m c) $$ Ha
    imodintro
    isplitl [Ha' Hrest]
    · iapply hjoin; isplitl [Ha'] <;> iassumption
    isplitl [HY]; · iexact HY
    unfold Pipeline.RDat.owesAt Pipeline.owesWithin
    icases HO with ⟨%W, -, HO⟩; iexists W; iexact HO

set_option backward.isDefEq.respectTransparency.types false in
/-- REGION 1 over the thread state: entered from every unscoped buffer at `W2`, left at `W3`. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).toR
  hwaits := Pipeline.RDat.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.RDat.arrays_of_unscopedBufs (p := 1) (pcfgs (F := F)) adm (rdats m) launch1.win launch1.arr_whole c
      (share1 m c) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (xdats m) ((xdats m 1 c).share_full fun _ => rfl)
      (V2 m c) (V3 m c) ((xdats m 1 c).arrAt · cfg1.N) (exit1 m c) (hrest1 m c)
    rw [Pipeline.unscopedBufs_held] at hjoin
    have harr : ((rdats m 1 c).arraysAt (Pipeline.pin (pcfgs (F := F)) adm 1).N : sProp 𝕄) = (xdats m 1 c).arrays ((xdats m 1 c).arrAt · cfg1.N) :=
      (dat1 (V2 m) c).toR_arraysAt_eq cfg1.N
    rw [harr]
    iintro ⟨Ha, HO, HY, Hrest⟩
    imodintro
    isplitl [Ha Hrest HY]
    · isplitl [Ha Hrest]
      · iapply hjoin; isplitl [Ha] <;> iassumption
      iexact HY
    unfold Pipeline.RDat.owesAt Pipeline.owesWithin
    icases HO with ⟨%W, -, HO⟩; iexists W; iexact HO

/-! ## The program as segments, and the launch -/

/-- The program's three items in order. -/
abbrev segs : List (Pipeline.RDat.Seg (pcfgs (F := F)) adm (rdats m) () defs₀ 𝒱₀ L lv) :=
  [ .region (reg0 m), .host (hseg1 m), .region (reg1 m) ]

/-- The printed program IS the run of the segments. -/
theorem main_run (c : Dev nD) : main (F := F) c = Pipeline.RDat.Seg.run (segs m) := (main_chain c).trans (by chain_rfl)

set_option backward.isDefEq.respectTransparency.types false in
/-- THE RUN: from any memory with zero counters, every weakly fair execution of the program terminates, nothing
    faulting, and the final memory holds every buffer that outlives a region at the last boundary's contents `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.RDat.θ_run_regions_kit (pcfgs (F := F)) adm (rdats m) () cellOf_inj emb₁ defs₀ 𝒱₀ L lv m ρ main (segs m)
    (fun c Q => by rw [main_run m c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.KernelIdeal.Hand

end
-- ==== Proof.Spec.lean ====
/- The three-layer perceptron as ONE function of its seven arrays, over the extended reals:
     h0 = x W0ᵀ,  a0 = max(h0 + b0, 0),  h1 = a0 W1ᵀ,  a1 = max(h1 + b1, 0),  out = a1 W2ᵀ + b2,
   every matrix product a plain sum over the contracted column. It is cut where the kernel cuts it:
   `dot0` (layer 0 before the bias) and `tail` (everything after, from a 1024 x 4096 array and the bias
   vectors laid out as rows). Both programs are shown to compute `G`. -/
import Idealize.ShloMosaic.Lib.ValueIdx
import Idealize.ShloMosaic.PureOps.Ideal

noncomputable section

namespace Cert.Spec

open Idealize.ShloMosaic Idealize.ShloMosaic.ValueIdx

abbrev T1024x16384 : Shape := ⟨2, ![1024, 16384]⟩
abbrev T4096x16384 : Shape := ⟨2, ![4096, 16384]⟩
abbrev T1024x4096 : Shape := ⟨2, ![1024, 4096]⟩
abbrev T256x1024 : Shape := ⟨2, ![256, 1024]⟩
abbrev T1024x256 : Shape := ⟨2, ![1024, 256]⟩
abbrev T1x4096 : Shape := ⟨2, ![1, 4096]⟩
abbrev T1x1024 : Shape := ⟨2, ![1, 1024]⟩
abbrev T1x256 : Shape := ⟨2, ![1, 256]⟩
abbrev T4096 : Shape := ⟨1, ![4096]⟩
abbrev T1024 : Shape := ⟨1, ![1024]⟩
abbrev T256 : Shape := ⟨1, ![256]⟩

/-- Layer 0 before the bias: row `r` of x against row `c` of W0. -/
def dot0 (x : T1024x16384.Idx → EReal) (W0 : T4096x16384.Idx → EReal) (r : Fin 1024) (c : Fin 4096) : EReal :=
  ∑ j : Fin 16384, x (ix2 r j) * W0 (ix2 c j)

section Tail

variable (h : T1024x4096.Idx → EReal) (w1 : T1024x4096.Idx → EReal) (w2 : T256x1024.Idx → EReal)
  (r0 : T1x4096.Idx → EReal) (r1 : T1x1024.Idx → EReal) (r2 : T1x256.Idx → EReal)

/-- Layer 0 after bias and ReLU. -/
def act0 (r : Fin 1024) (c : Fin 4096) : EReal := max (h (ix2 r c) + r0 (ix2 (0 : Fin 1) c)) 0
/-- Layer 1 after bias and ReLU. -/
def act1 (r : Fin 1024) (c : Fin 1024) : EReal :=
  max ((∑ j : Fin 4096, act0 h r0 r j * w1 (ix2 c j)) + r1 (ix2 (0 : Fin 1) c)) 0
/-- Layer 2: no ReLU. -/
def out2 (r : Fin 1024) (c : Fin 256) : EReal :=
  (∑ j : Fin 1024, act1 h w1 r0 r1 r j * w2 (ix2 c j)) + r2 (ix2 (0 : Fin 1) c)

/-- Everything after layer 0's matrix product, as an array. -/
def tail : T1024x256.Idx → EReal :=
  fun i => out2 h w1 w2 r0 r1 r2 ⟨(i 0).val, (i 0).isLt⟩ ⟨(i 1).val, (i 1).isLt⟩

end Tail

/-- The result array, from the seven arguments. -/
def G (x : T1024x16384.Idx → EReal) (W0 : T4096x16384.Idx → EReal) (b0 : T4096.Idx → EReal) (W1 : T1024x4096.Idx → EReal)
    (b1 : T1024.Idx → EReal) (W2 : T256x1024.Idx → EReal) (b2 : T256.Idx → EReal) : T1024x256.Idx → EReal :=
  tail (fun i => dot0 x W0 ⟨(i 0).val, (i 0).isLt⟩ ⟨(i 1).val, (i 1).isLt⟩) W1 W2
    (fun i => b0 (ix1 (⟨(i 1).val, (i 1).isLt⟩ : Fin 4096))) (fun i => b1 (ix1 (⟨(i 1).val, (i 1).isLt⟩ : Fin 1024)))
    (fun i => b2 (ix1 (⟨(i 1).val, (i 1).isLt⟩ : Fin 256)))

end Cert.Spec

end
-- ==== Proof.IValue0.lean ====
/- Region 0's result as mathematics: at the ideal instance, each entry of the kept buffer after the 32
   points is the full dot product of a row of x with a row of W0.

   Column block n of the kept buffer is the left-nested sum over k = 0..7 of the eight partial products;
   the k-th partial product at (r, cc) is the sum over the 2048 columns of the k-th slab of x(r, ·) times
   W0(1024 n + cc, ·); the eight slabs tile the 16384 columns, so the eight sums regroup into one. -/
import proofs.«142497_g35089882808761_cont_8to1_b_317_16_alg».proof.Proof.IBody0
import proofs.«142497_g35089882808761_cont_8to1_b_317_16_alg».proof.Proof.Spec
import Idealize.ShloMosaic.PureOps.Ideal.Laws
import Idealize.ShloMosaic.Lib.ValueIdx
import Idealize.ShloMosaic.Lib.Pipeline.Value
import Mathlib.Algebra.BigOperators.Fin
import Mathlib.Algebra.BigOperators.Group.Finset.Basic
import Mathlib.Data.Fintype.BigOperators
import Mathlib.Logic.Equiv.Fin.Basic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen
open Idealize.ShloMosaic.ValueIdx
open scoped BigOperators

/-! ## One partial product at an index -/

private theorem lhs_part0_0 (i : S1024x1024.Idx) (q : dot_S1024x2048_S1024x2048_S1024x1024_1_1_0_0_n_n.contr.Idx) :
    (dot_S1024x2048_S1024x2048_S1024x1024_1_1_0_0_n_n.lhsIdx i q 0).val = (i 0).val := by
  unfold DotDims.lhsIdx
  rw [dif_neg (show ¬(0 : Fin S1024x2048.rank) ∈ dot_S1024x2048_S1024x2048_S1024x1024_1_1_0_0_n_n.lhsBatch by decide), dif_pos (show (0 : Fin S1024x2048.rank) ∈ dot_S1024x2048_S1024x2048_S1024x1024_1_1_0_0_n_n.lhsNonContracting by decide)]
  rfl
private theorem lhs_part0_1 (i : S1024x1024.Idx) (q : dot_S1024x2048_S1024x2048_S1024x1024_1_1_0_0_n_n.contr.Idx) :
    (dot_S1024x2048_S1024x2048_S1024x1024_1_1_0_0_n_n.lhsIdx i q 1).val = (q ⟨0, by decide⟩).val :=
  dot_S1024x2048_S1024x2048_S1024x1024_1_1_0_0_n_n.lhsIdx_val_of_single rfl i q
private theorem rhs_part0_0 (i : S1024x1024.Idx) (q : dot_S1024x2048_S1024x2048_S1024x1024_1_1_0_0_n_n.contr.Idx) :
    (dot_S1024x2048_S1024x2048_S1024x1024_1_1_0_0_n_n.rhsIdx i q 0).val = (i 1).val := by
  unfold DotDims.rhsIdx
  rw [dif_neg (show ¬(0 : Fin S1024x2048.rank) ∈ dot_S1024x2048_S1024x2048_S1024x1024_1_1_0_0_n_n.rhsBatch by decide), dif_pos (show (0 : Fin S1024x2048.rank) ∈ dot_S1024x2048_S1024x2048_S1024x1024_1_1_0_0_n_n.rhsNonContracting by decide)]
  rfl
private theorem rhs_part0_1 (i : S1024x1024.Idx) (q : dot_S1024x2048_S1024x2048_S1024x1024_1_1_0_0_n_n.contr.Idx) :
    (dot_S1024x2048_S1024x2048_S1024x1024_1_1_0_0_n_n.rhsIdx i q 1).val = (q ⟨0, by decide⟩).val :=
  dot_S1024x2048_S1024x2048_S1024x1024_1_1_0_0_n_n.rhsIdx_val_of_single rfl i q

/-- The index of a slab at row `a`, column `q`. -/
private abbrev slabIx (a : Fin 1024) (q : Fin 2048) : S1024x2048.Idx := ix2 a q

/-- The product of an x slab with a W0 block at `(r, cc)`: row `r` of the slab against row `cc` of the block. -/
private theorem part0_apply (x w : Vec Ideal S1024x2048 .f32) (r cc : Fin 1024) :
    part0 (F := Ideal) x w (ix2 r cc) = ∑ q : Fin 2048, x (slabIx r q) * w (slabIx cc q) := by
  generalize hi : (ix2 r cc : S1024x1024.Idx) = i
  have hi0 : (i 0).val = r.val := by rw [← hi]
  have hi1 : (i 1).val = cc.val := by rw [← hi]
  unfold part0
  show FloatOps.matmul dot_S1024x2048_S1024x2048_S1024x1024_1_1_0_0_n_n none (truncf .bf16 x bitsLt_bf16_f32) (truncf .bf16 w bitsLt_bf16_f32)
    (constant (F := Ideal) S1024x1024 .f32 0x00000000#32) i = _
  rw [Ideal.matmul_constant_zero_apply, ← Equiv.sum_comp (ValueIdx.contrEquiv1 dot_S1024x2048_S1024x2048_S1024x1024_1_1_0_0_n_n 2048 rfl rfl).symm]
  refine Finset.sum_congr rfl fun q _ => ?_
  have hq := ValueIdx.contrEquiv1_symm_val dot_S1024x2048_S1024x2048_S1024x1024_1_1_0_0_n_n 2048 rfl rfl q
  have el : dot_S1024x2048_S1024x2048_S1024x1024_1_1_0_0_n_n.lhsIdx i ((ValueIdx.contrEquiv1 dot_S1024x2048_S1024x2048_S1024x1024_1_1_0_0_n_n 2048 rfl rfl).symm q) = slabIx r q := funext fun a => Fin.ext (by
    match a with
    | ⟨0, _⟩ => exact (lhs_part0_0 _ _).trans hi0
    | ⟨1, _⟩ => exact (lhs_part0_1 _ _).trans hq)
  have er : dot_S1024x2048_S1024x2048_S1024x1024_1_1_0_0_n_n.rhsIdx i ((ValueIdx.contrEquiv1 dot_S1024x2048_S1024x2048_S1024x1024_1_1_0_0_n_n 2048 rfl rfl).symm q) = slabIx cc q := funext fun a => Fin.ext (by
    match a with
    | ⟨0, _⟩ => exact (rhs_part0_0 _ _).trans hi1
    | ⟨1, _⟩ => exact (rhs_part0_1 _ _).trans hq)
  rw [el, er]
  rfl

/-! ## The nested sum of the partial products -/

/-- At the ideal instance the left-nested sum is the sum over the slabs so far. -/
private theorem accum0_apply (xb wb : ℕ → Vec Ideal S1024x2048 .f32) (n : ℕ) (y : S1024x1024.Idx) : ∀ k : ℕ,
    accum0 xb wb k n y = ∑ k' ∈ Finset.range (k + 1), part0 (xb (4 * k' + n)) (wb (4 * k' + n)) y
  | 0 => by rw [accum0, Finset.sum_range_one, Nat.mul_zero, Nat.zero_add]
  | k + 1 => by rw [accum0, Finset.sum_range_succ, ← accum0_apply xb wb n y k]; rfl

/-! ## Eight slabs of 2048 columns are the 16384 columns -/

private theorem sum_slabs (g : Fin 16384 → EReal) :
    ∑ k : Fin 8, ∑ q : Fin 2048, g ⟨2048 * k.val + q.val, by have := k.isLt; have := q.isLt; omega⟩ = ∑ j : Fin 16384, g j := by
  rw [← Equiv.sum_comp (finProdFinEquiv (m := 8) (n := 2048)) g, Fintype.sum_prod_type]
  refine Finset.sum_congr rfl fun k _ => Finset.sum_congr rfl fun q _ => ?_
  congr 1
  apply Fin.ext
  show 2048 * k.val + q.val = q.val + 2048 * k.val
  omega

/-! ## The blocks the points are handed, read off the arrays -/

variable (V : (c : Dev nD) → (b : Ref sig .tc) → Buf (Elt Ideal) ((c : Thread nD τ).loc b))

/-- The printed index maps over the grid: point `t = 4 k + n` is handed column slab `k` of x, and of W0 row
    block `n`, column slab `k`. -/
private theorem idx_facts0 : ∀ t : Fin cfg0.N, win0_0.index t (0 : Fin 2) = 0 ∧ win0_0.index t (1 : Fin 2) = t.val / 4
    ∧ win0_1.index t (0 : Fin 2) = t.val % 4 ∧ win0_1.index t (1 : Fin 2) = t.val / 4 :=
  (by decide +kernel : ∀ t : Fin grid0.N, _)

private theorem pt_lt (k : Fin 8) (n : Fin 4) : 4 * k.val + n.val < cfg0.N := by
  rw [show cfg0.N = 32 from N_0]; have := k.isLt; have := n.isLt; omega

/-- The x slab of point `4 k + n` at `(r, q)` is x at `(r, 2048 k + q)`. -/
private theorem xb0_apply (c : Dev nD) (k : Fin 8) (n : Fin 4) (r : Fin 1024) (q : Fin 2048) :
    xb0 V c (4 * k.val + n.val) (slabIx r q)
      = V c main_arg0 (ix2 r (⟨2048 * k.val + q.val, by have := k.isLt; have := q.isLt; omega⟩ : Fin 16384)) := by
  rw [show xb0 V c (4 * k.val + n.val) = iblk0 V c 0 ⟨4 * k.val + n.val, pt_lt k n⟩ from xb0_val V c ⟨_, pt_lt k n⟩]
  obtain ⟨e0, e1, -, -⟩ := idx_facts0 ⟨4 * k.val + n.val, pt_lt k n⟩
  have hk : (4 * k.val + n.val) / 4 = k.val := by have := n.isLt; omega
  show V c main_arg0 (((cfg0.win 0).blk ⟨4 * k.val + n.val, pt_lt k n⟩).view.emb (slabIx r q)) = _
  congr 1
  funext a; apply Fin.ext
  match a with
  | ⟨0, _⟩ =>
    show win0_0.index ⟨4 * k.val + n.val, pt_lt k n⟩ (0 : Fin 2) * 1024 + 1 * r.val = r.val
    rw [e0]; omega
  | ⟨1, _⟩ =>
    show win0_0.index ⟨4 * k.val + n.val, pt_lt k n⟩ (1 : Fin 2) * 2048 + 1 * q.val = 2048 * k.val + q.val
    rw [e1]; show (4 * k.val + n.val) / 4 * 2048 + 1 * q.val = _; rw [hk]; omega

/-- The W0 block of point `4 k + n` at `(cc, q)` is W0 at `(1024 n + cc, 2048 k + q)`. -/
private theorem wb0_apply (c : Dev nD) (k : Fin 8) (n : Fin 4) (cc : Fin 1024) (q : Fin 2048) :
    wb0 V c (4 * k.val + n.val) (slabIx cc q)
      = V c main_arg1 (ix2 (⟨1024 * n.val + cc.val, by have := n.isLt; have := cc.isLt; omega⟩ : Fin 4096)
          (⟨2048 * k.val + q.val, by have := k.isLt; have := q.isLt; omega⟩ : Fin 16384)) := by
  rw [show wb0 V c (4 * k.val + n.val) = iblk0 V c 1 ⟨4 * k.val + n.val, pt_lt k n⟩ from wb0_val V c ⟨_, pt_lt k n⟩]
  obtain ⟨-, -, e2, e3⟩ := idx_facts0 ⟨4 * k.val + n.val, pt_lt k n⟩
  have hk : (4 * k.val + n.val) / 4 = k.val := by have := n.isLt; omega
  have hn : (4 * k.val + n.val) % 4 = n.val := by have := n.isLt; omega
  show V c main_arg1 (((cfg0.win 1).blk ⟨4 * k.val + n.val, pt_lt k n⟩).view.emb (slabIx cc q)) = _
  congr 1
  funext a; apply Fin.ext
  match a with
  | ⟨0, _⟩ =>
    show win0_1.index ⟨4 * k.val + n.val, pt_lt k n⟩ (0 : Fin 2) * 1024 + 1 * cc.val = 1024 * n.val + cc.val
    rw [e2]; show (4 * k.val + n.val) % 4 * 1024 + 1 * cc.val = _; rw [hn]; omega
  | ⟨1, _⟩ =>
    show win0_1.index ⟨4 * k.val + n.val, pt_lt k n⟩ (1 : Fin 2) * 2048 + 1 * q.val = 2048 * k.val + q.val
    rw [e3]; show (4 * k.val + n.val) / 4 * 2048 + 1 * q.val = _; rw [hk]; omega

/-! ## The kept buffer's blocks are the dot products -/

/-- x and W0 as the region finds them, as arrays of extended reals. -/
private abbrev xArr (c : Dev nD) : S1024x16384.Idx → EReal := V c main_arg0
private abbrev wArr (c : Dev nD) : S4096x16384.Idx → EReal := V c main_arg1

/-- Column block `n` at `(r, cc)` after the eight slabs: row `r` of x against row `1024 n + cc` of W0. -/
private theorem block_eq (c : Dev nD) (r : Fin 1024) (n : Fin 4) (cc : Fin 1024) :
    accum0 (xb0 V c) (wb0 V c) 7 n.val (ix2 r cc)
      = Cert.Spec.dot0 (V c main_arg0) (V c main_arg1) r ⟨1024 * n.val + cc.val, by have := n.isLt; have := cc.isLt; omega⟩ := by
  rw [accum0_apply, Finset.sum_range]
  unfold Cert.Spec.dot0
  refine (Finset.sum_congr rfl fun k _ => ?_).trans
    (sum_slabs fun j => xArr V c (ix2 r j)
      * wArr V c (ix2 (⟨1024 * n.val + cc.val, by have := n.isLt; have := cc.isLt; omega⟩ : Fin 4096) j))
  rw [part0_apply]
  refine Finset.sum_congr rfl fun q _ => ?_
  rw [xb0_apply V c k n r q, wb0_apply V c k n cc q]

/-- Region 0's result array holds layer 0 before the bias: entry `(r, col)` is row `r` of x against row `col` of W0. -/
theorem res0_eq (c : Dev nD) (i : S1024x4096.Idx) :
    res0 V c i = Cert.Spec.dot0 (V c main_arg0) (V c main_arg1) ⟨(i 0).val, (i 0).isLt⟩ ⟨(i 1).val, (i 1).isLt⟩ := by
  have hi1 : (i 1).val < 4096 := (i 1).isLt
  refine (block_eq V c ⟨(i 0).val, (i 0).isLt⟩ ⟨(i 1).val / 1024, by omega⟩ ⟨(i 1).val % 1024, Nat.mod_lt _ (by decide)⟩).trans ?_
  congr 1
  apply Fin.ext
  show 1024 * ((i 1).val / 1024) + (i 1).val % 1024 = (i 1).val
  omega

end Cert.KernelIdeal.Hand

end
-- ==== Proof.IValue1.lean ====
/- The tail kernel's result array over the extended reals.

   At the ideal values every narrowing is the identity and each block product is a plain sum over the
   contracted column, so the 256 x 256 block the body stores at a grid point is, entry by entry,
   relu(relu(slab + b0) W1ᵀ + b1) W2ᵀ + b2 read off the six blocks it was handed. Point t is handed rows
   256 t .. 256 t + 255 of the previous layer's result and the five constant arrays whole, and writes rows
   256 t .. 256 t + 255 of the output array; the four points' blocks tile that array. Hence the array the
   region leaves is the specification's `tail` of the six arrays the region found. -/
import proofs.«142497_g35089882808761_cont_8to1_b_317_16_alg».proof.Proof.IBody1
import proofs.«142497_g35089882808761_cont_8to1_b_317_16_alg».proof.Proof.Spec
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

/-! ## The two block products at an index

Each product contracts the second axis of both operands, so at output index (p, j) the left operand is
read along its row p and the right operand along its row j. -/

theorem lhs_mm1_0 (i : S256x1024.Idx) (q : dot_S256x4096_S1024x4096_S256x1024_1_1_0_0_n_n.contr.Idx) :
    (dot_S256x4096_S1024x4096_S256x1024_1_1_0_0_n_n.lhsIdx i q 0).val = (i 0).val := by
  unfold DotDims.lhsIdx
  rw [dif_neg (show ¬(0 : Fin S256x4096.rank) ∈ dot_S256x4096_S1024x4096_S256x1024_1_1_0_0_n_n.lhsBatch by decide), dif_pos (show (0 : Fin S256x4096.rank) ∈ dot_S256x4096_S1024x4096_S256x1024_1_1_0_0_n_n.lhsNonContracting by decide)]
  rfl
theorem lhs_mm1_1 (i : S256x1024.Idx) (q : dot_S256x4096_S1024x4096_S256x1024_1_1_0_0_n_n.contr.Idx) :
    (dot_S256x4096_S1024x4096_S256x1024_1_1_0_0_n_n.lhsIdx i q 1).val = (q ⟨0, by decide⟩).val :=
  dot_S256x4096_S1024x4096_S256x1024_1_1_0_0_n_n.lhsIdx_val_of_single rfl i q
theorem rhs_mm1_0 (i : S256x1024.Idx) (q : dot_S256x4096_S1024x4096_S256x1024_1_1_0_0_n_n.contr.Idx) :
    (dot_S256x4096_S1024x4096_S256x1024_1_1_0_0_n_n.rhsIdx i q 0).val = (i 1).val := by
  unfold DotDims.rhsIdx
  rw [dif_neg (show ¬(0 : Fin S1024x4096.rank) ∈ dot_S256x4096_S1024x4096_S256x1024_1_1_0_0_n_n.rhsBatch by decide), dif_pos (show (0 : Fin S1024x4096.rank) ∈ dot_S256x4096_S1024x4096_S256x1024_1_1_0_0_n_n.rhsNonContracting by decide)]
  rfl
theorem rhs_mm1_1 (i : S256x1024.Idx) (q : dot_S256x4096_S1024x4096_S256x1024_1_1_0_0_n_n.contr.Idx) :
    (dot_S256x4096_S1024x4096_S256x1024_1_1_0_0_n_n.rhsIdx i q 1).val = (q ⟨0, by decide⟩).val :=
  dot_S256x4096_S1024x4096_S256x1024_1_1_0_0_n_n.rhsIdx_val_of_single rfl i q

/-- The middle layer's product of a 256-row block: entry (p, j) sums, over the 4096 shared columns, row p of the left block against row j of the weight. -/
theorem mm1_apply (a : FVec Ideal S256x4096 .bf16) (b : FVec Ideal S1024x4096 .bf16) (p : Fin 256) (j : Fin 1024) :
    matmul dot_S256x4096_S1024x4096_S256x1024_1_1_0_0_n_n none a b (constant S256x1024 .f32 0x00000000#32) (ix2 p j) = ∑ k : Fin 4096, a (ix2 p k) * b (ix2 j k) := by
  simp only [matmul]
  rw [Ideal.matmul_constant_zero_apply, ← Equiv.sum_comp (contrEquiv1 dot_S256x4096_S1024x4096_S256x1024_1_1_0_0_n_n 4096 rfl rfl).symm]
  refine Finset.sum_congr rfl fun k _ => ?_
  have hk := contrEquiv1_symm_val dot_S256x4096_S1024x4096_S256x1024_1_1_0_0_n_n 4096 rfl rfl k
  have el : dot_S256x4096_S1024x4096_S256x1024_1_1_0_0_n_n.lhsIdx (ix2 p j) ((contrEquiv1 dot_S256x4096_S1024x4096_S256x1024_1_1_0_0_n_n 4096 rfl rfl).symm k) = ix2 p k := funext fun a => Fin.ext (by
    match a with
    | ⟨0, _⟩ => exact lhs_mm1_0 _ _
    | ⟨1, _⟩ => exact (lhs_mm1_1 _ _).trans hk)
  have er : dot_S256x4096_S1024x4096_S256x1024_1_1_0_0_n_n.rhsIdx (ix2 p j) ((contrEquiv1 dot_S256x4096_S1024x4096_S256x1024_1_1_0_0_n_n 4096 rfl rfl).symm k) = ix2 j k := funext fun a => Fin.ext (by
    match a with
    | ⟨0, _⟩ => exact rhs_mm1_0 _ _
    | ⟨1, _⟩ => exact (rhs_mm1_1 _ _).trans hk)
  rw [el, er]

theorem lhs_mm2_0 (i : S256x256.Idx) (q : dot_S256x1024_S256x1024_S256x256_1_1_0_0_n_n.contr.Idx) :
    (dot_S256x1024_S256x1024_S256x256_1_1_0_0_n_n.lhsIdx i q 0).val = (i 0).val := by
  unfold DotDims.lhsIdx
  rw [dif_neg (show ¬(0 : Fin S256x1024.rank) ∈ dot_S256x1024_S256x1024_S256x256_1_1_0_0_n_n.lhsBatch by decide), dif_pos (show (0 : Fin S256x1024.rank) ∈ dot_S256x1024_S256x1024_S256x256_1_1_0_0_n_n.lhsNonContracting by decide)]
  rfl
theorem lhs_mm2_1 (i : S256x256.Idx) (q : dot_S256x1024_S256x1024_S256x256_1_1_0_0_n_n.contr.Idx) :
    (dot_S256x1024_S256x1024_S256x256_1_1_0_0_n_n.lhsIdx i q 1).val = (q ⟨0, by decide⟩).val :=
  dot_S256x1024_S256x1024_S256x256_1_1_0_0_n_n.lhsIdx_val_of_single rfl i q
theorem rhs_mm2_0 (i : S256x256.Idx) (q : dot_S256x1024_S256x1024_S256x256_1_1_0_0_n_n.contr.Idx) :
    (dot_S256x1024_S256x1024_S256x256_1_1_0_0_n_n.rhsIdx i q 0).val = (i 1).val := by
  unfold DotDims.rhsIdx
  rw [dif_neg (show ¬(0 : Fin S256x1024.rank) ∈ dot_S256x1024_S256x1024_S256x256_1_1_0_0_n_n.rhsBatch by decide), dif_pos (show (0 : Fin S256x1024.rank) ∈ dot_S256x1024_S256x1024_S256x256_1_1_0_0_n_n.rhsNonContracting by decide)]
  rfl
theorem rhs_mm2_1 (i : S256x256.Idx) (q : dot_S256x1024_S256x1024_S256x256_1_1_0_0_n_n.contr.Idx) :
    (dot_S256x1024_S256x1024_S256x256_1_1_0_0_n_n.rhsIdx i q 1).val = (q ⟨0, by decide⟩).val :=
  dot_S256x1024_S256x1024_S256x256_1_1_0_0_n_n.rhsIdx_val_of_single rfl i q

/-- The last layer's product: entry (p, q) sums, over the 1024 shared columns, row p of the left block against row q of the weight. -/
theorem mm2_apply (a : FVec Ideal S256x1024 .bf16) (b : FVec Ideal S256x1024 .bf16) (p : Fin 256) (j : Fin 256) :
    matmul dot_S256x1024_S256x1024_S256x256_1_1_0_0_n_n none a b (constant S256x256 .f32 0x00000000#32) (ix2 p j) = ∑ k : Fin 1024, a (ix2 p k) * b (ix2 j k) := by
  simp only [matmul]
  rw [Ideal.matmul_constant_zero_apply, ← Equiv.sum_comp (contrEquiv1 dot_S256x1024_S256x1024_S256x256_1_1_0_0_n_n 1024 rfl rfl).symm]
  refine Finset.sum_congr rfl fun k _ => ?_
  have hk := contrEquiv1_symm_val dot_S256x1024_S256x1024_S256x256_1_1_0_0_n_n 1024 rfl rfl k
  have el : dot_S256x1024_S256x1024_S256x256_1_1_0_0_n_n.lhsIdx (ix2 p j) ((contrEquiv1 dot_S256x1024_S256x1024_S256x256_1_1_0_0_n_n 1024 rfl rfl).symm k) = ix2 p k := funext fun a => Fin.ext (by
    match a with
    | ⟨0, _⟩ => exact lhs_mm2_0 _ _
    | ⟨1, _⟩ => exact (lhs_mm2_1 _ _).trans hk)
  have er : dot_S256x1024_S256x1024_S256x256_1_1_0_0_n_n.rhsIdx (ix2 p j) ((contrEquiv1 dot_S256x1024_S256x1024_S256x256_1_1_0_0_n_n 1024 rfl rfl).symm k) = ix2 j k := funext fun a => Fin.ext (by
    match a with
    | ⟨0, _⟩ => exact rhs_mm2_0 _ _
    | ⟨1, _⟩ => exact (rhs_mm2_1 _ _).trans hk)
  rw [el, er]

/-! ## Bias, ReLU and the narrowing to bf16, at an index

Over the extended reals the narrowing is the identity, the zero literal is 0, and a bias row broadcast over
the block's rows is read at the column alone. -/

theorem relu0_apply (h : FVec Ideal S256x4096 .f32) (r : FVec Ideal S1x4096 .f32) (p : Fin 256) (k : Fin 4096) :
    (truncf .bf16 (maximumf (addf h (broadcastTo S256x4096 r broadcasts_S1x4096_S256x4096))
        (broadcast S256x4096 (Scalar.ofBits (F := Ideal) .f32 0x00000000#32))) bitsLt_bf16_f32 : FVec Ideal S256x4096 .bf16) (ix2 p k)
      = max (h (ix2 p k) + r (ix2 (0 : Fin 1) k)) 0 := by
  rw [truncf_apply, maximumf_apply, addf_apply, broadcast_apply, broadcastTo_1b_ab_apply]
  show max _ (Ideal.ofBits .f32 0x00000000#32) = _
  rw [Ideal.ofBits_zero_f32]

theorem relu1_apply (h : FVec Ideal S256x1024 .f32) (r : FVec Ideal S1x1024 .f32) (p : Fin 256) (k : Fin 1024) :
    (truncf .bf16 (maximumf (addf h (broadcastTo S256x1024 r broadcasts_S1x1024_S256x1024))
        (broadcast S256x1024 (Scalar.ofBits (F := Ideal) .f32 0x00000000#32))) bitsLt_bf16_f32 : FVec Ideal S256x1024 .bf16) (ix2 p k)
      = max (h (ix2 p k) + r (ix2 (0 : Fin 1) k)) 0 := by
  rw [truncf_apply, maximumf_apply, addf_apply, broadcast_apply, broadcastTo_1b_ab_apply]
  show max _ (Ideal.ofBits .f32 0x00000000#32) = _
  rw [Ideal.ofBits_zero_f32]

/-! ## The store's payload at an index -/

/-- The block the body stores, entry (p, q), from the six loaded blocks: the slab `v0`, the bias rows `v2`,
    `v12`, `v22` and the two weights `v9`, `v19`. -/
theorem pay_ix2 (v0 : Vec Ideal S256x4096 .f32) (v2 : Vec Ideal S1x4096 .f32) (v9 : Vec Ideal S1024x4096 .bf16)
    (v12 : Vec Ideal S1x1024 .f32) (v19 : Vec Ideal S256x1024 .bf16) (v22 : Vec Ideal S1x256 .f32) (p q : Fin 256) :
    k1_pay1 (F := Ideal) v0 v2 v9 v12 v19 v22 (ix2 p q)
      = (∑ j : Fin 1024, max ((∑ k : Fin 4096, max (v0 (ix2 p k) + v2 (ix2 (0 : Fin 1) k)) 0 * v9 (ix2 j k))
            + v12 (ix2 (0 : Fin 1) j)) 0 * v19 (ix2 q j)) + v22 (ix2 (0 : Fin 1) q) := by
  unfold k1_pay1
  simp only [shapeCast_self]
  rw [addf_apply, mm2_apply, broadcastTo_1b_ab_apply]
  refine congrArg (· + v22 (ix2 (0 : Fin 1) q)) (Finset.sum_congr rfl fun j _ => ?_)
  rw [relu1_apply, mm1_apply]
  refine congrArg (fun s => max (s + v12 (ix2 (0 : Fin 1) j)) 0 * v19 (ix2 q j)) (Finset.sum_congr rfl fun k _ => ?_)
  rw [relu0_apply]

/-! ## From the blocks to the array

The grid has four points; point `t` is handed rows 256 t .. 256 t + 255 of the previous layer's result and
writes rows 256 t .. 256 t + 255 of the output array; the five constant arrays are handed over whole. -/

variable (V : (c : Dev nD) → (b : Ref sig .tc) → Buf (Elt Ideal) ((c : Thread nD τ).loc b))

theorem zeroOff : (![0, 0] : Fin 2 → Nat) = fun _ => 0 := funext fun a => by fin_cases a <;> rfl

/-- The block indices of the seven windows at each point, decided over the four points. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of point `t`'s slab, as a row of the whole 1024-row array. -/
def rowOf (t : Fin cfg1.N) (p : Fin 256) : Fin 1024 :=
  ⟨t.val * 256 + p.val, by have ht : t.val < 4 := lt_of_lt_of_eq t.isLt N_1; have := p.isLt; omega⟩

/-- The slab at point `t` is rows 256 t .. 256 t + 255 of the previous layer's result. -/
theorem blk0_apply (c : Dev nD) (t : Fin cfg1.N) (p : Fin 256) (k : Fin 4096) :
    iblk1 V c 0 t (ix2 p k) = V c main_v0 (ix2 (rowOf t p) k) := by
  obtain ⟨e00, e01, e10, e11, e20, e21, e30, e31, e40, e41, e50, e51, e60, e61⟩ := idx_facts1 t
  show V c main_v0 (((cfg1.win 0).blk t).view.emb (ix2 p k)) = V c main_v0 (ix2 (rowOf t p) k)
  refine congrArg (V c main_v0) (funext fun a => Fin.ext ?_)
  match a with
  | ⟨0, _⟩ => show win1_0.index t (0 : Fin 2) * 256 + 1 * p.val = t.val * 256 + p.val; omega
  | ⟨1, _⟩ => show win1_0.index t (1 : Fin 2) * 4096 + 1 * k.val = k.val; omega

/-- The middle weight is handed over whole: its block at any point reads the array itself. -/
theorem blk1_apply (c : Dev nD) (t : Fin cfg1.N) (x : Fin 1024) (y : Fin 4096) :
    iblk1 V c 1 t (ix2 x y) = V c main_v1 (ix2 x y) := by
  obtain ⟨e00, e01, e10, e11, e20, e21, e30, e31, e40, e41, e50, e51, e60, e61⟩ := idx_facts1 t
  show V c main_v1 (((cfg1.win 1).blk t).view.emb (ix2 x y)) = V c main_v1 (ix2 x y)
  refine congrArg (V c main_v1) (funext fun a => Fin.ext ?_)
  match a with
  | ⟨0, _⟩ => show win1_1.index t (0 : Fin 2) * 1024 + 1 * x.val = x.val; omega
  | ⟨1, _⟩ => show win1_1.index t (1 : Fin 2) * 4096 + 1 * y.val = y.val; omega

/-- The last weight is handed over whole: its block at any point reads the array itself. -/
theorem blk2_apply (c : Dev nD) (t : Fin cfg1.N) (x : Fin 256) (y : Fin 1024) :
    iblk1 V c 2 t (ix2 x y) = V c main_v2 (ix2 x y) := by
  obtain ⟨e00, e01, e10, e11, e20, e21, e30, e31, e40, e41, e50, e51, e60, e61⟩ := idx_facts1 t
  show V c main_v2 (((cfg1.win 2).blk t).view.emb (ix2 x y)) = V c main_v2 (ix2 x y)
  refine congrArg (V c main_v2) (funext fun a => Fin.ext ?_)
  match a with
  | ⟨0, _⟩ => show win1_2.index t (0 : Fin 2) * 256 + 1 * x.val = x.val; omega
  | ⟨1, _⟩ => show win1_2.index t (1 : Fin 2) * 1024 + 1 * y.val = y.val; omega

/-- The first bias row is handed over whole: its block at any point reads the array itself. -/
theorem blk3_apply (c : Dev nD) (t : Fin cfg1.N) (x : Fin 1) (y : Fin 4096) :
    iblk1 V c 3 t (ix2 x y) = V c main_v3 (ix2 x y) := by
  obtain ⟨e00, e01, e10, e11, e20, e21, e30, e31, e40, e41, e50, e51, e60, e61⟩ := idx_facts1 t
  show V c main_v3 (((cfg1.win 3).blk t).view.emb (ix2 x y)) = V c main_v3 (ix2 x y)
  refine congrArg (V c main_v3) (funext fun a => Fin.ext ?_)
  match a with
  | ⟨0, _⟩ => show win1_3.index t (0 : Fin 2) * 1 + 1 * x.val = x.val; omega
  | ⟨1, _⟩ => show win1_3.index t (1 : Fin 2) * 4096 + 1 * y.val = y.val; omega

/-- The second bias row is handed over whole: its block at any point reads the array itself. -/
theorem blk4_apply (c : Dev nD) (t : Fin cfg1.N) (x : Fin 1) (y : Fin 1024) :
    iblk1 V c 4 t (ix2 x y) = V c main_v4 (ix2 x y) := by
  obtain ⟨e00, e01, e10, e11, e20, e21, e30, e31, e40, e41, e50, e51, e60, e61⟩ := idx_facts1 t
  show V c main_v4 (((cfg1.win 4).blk t).view.emb (ix2 x y)) = V c main_v4 (ix2 x y)
  refine congrArg (V c main_v4) (funext fun a => Fin.ext ?_)
  match a with
  | ⟨0, _⟩ => show win1_4.index t (0 : Fin 2) * 1 + 1 * x.val = x.val; omega
  | ⟨1, _⟩ => show win1_4.index t (1 : Fin 2) * 1024 + 1 * y.val = y.val; omega

/-- The third bias row is handed over whole: its block at any point reads the array itself. -/
theorem blk5_apply (c : Dev nD) (t : Fin cfg1.N) (x : Fin 1) (y : Fin 256) :
    iblk1 V c 5 t (ix2 x y) = V c main_v5 (ix2 x y) := by
  obtain ⟨e00, e01, e10, e11, e20, e21, e30, e31, e40, e41, e50, e51, e60, e61⟩ := idx_facts1 t
  show V c main_v5 (((cfg1.win 5).blk t).view.emb (ix2 x y)) = V c main_v5 (ix2 x y)
  refine congrArg (V c main_v5) (funext fun a => Fin.ext ?_)
  match a with
  | ⟨0, _⟩ => show win1_5.index t (0 : Fin 2) * 1 + 1 * x.val = x.val; omega
  | ⟨1, _⟩ => show win1_5.index t (1 : Fin 2) * 256 + 1 * y.val = y.val; omega

/-- Entry (p, q) of point `t`'s output block lies at row 256 t + p, column q of the output array. -/
theorem emb6_ix2 (t : Fin cfg1.N) (p q : Fin 256) :
    ((cfg1.win 6).blk t).view.emb (ix2 p q) = (ix2 (rowOf t p) q : S1024x256.Idx) := by
  obtain ⟨e00, e01, e10, e11, e20, e21, e30, e31, e40, e41, e50, e51, e60, e61⟩ := idx_facts1 t
  refine funext fun a => Fin.ext ?_
  match a with
  | ⟨0, _⟩ => show win1_6.index t (0 : Fin 2) * 256 + 1 * p.val = t.val * 256 + p.val; omega
  | ⟨1, _⟩ => show win1_6.index t (1 : Fin 2) * 256 + 1 * q.val = q.val; omega

/-- What the body leaves at entry (p, q) of the output buffer at point `t` is the specification's value at
    row 256 t + p, column q. -/
theorem leaves_ix2 (c : Dev nD) (t : Fin cfg1.N) (p q : Fin 256) :
    k1_pay1 (F := Ideal) (iblk1 V c 0 t) (iblk1 V c 3 t) (iblk1 V c 1 t) (iblk1 V c 4 t) (iblk1 V c 2 t) (iblk1 V c 5 t) (ix2 p q)
      = Cert.Spec.out2 (V c main_v0) (V c main_v1) (V c main_v2) (V c main_v3) (V c main_v4) (V c main_v5) (rowOf t p) q := by
  refine (pay_ix2 _ _ _ _ _ _ p q).trans ?_
  unfold Cert.Spec.out2 Cert.Spec.act1 Cert.Spec.act0
  simp only [blk0_apply, blk1_apply, blk2_apply, blk3_apply, blk4_apply, blk5_apply]

/-- The same at any index of the block. -/
theorem leaves_at (c : Dev nD) (t : Fin cfg1.N) (y : S256x256.Idx) :
    k1_pay1 (F := Ideal) (iblk1 V c 0 t) (iblk1 V c 3 t) (iblk1 V c 1 t) (iblk1 V c 4 t) (iblk1 V c 2 t) (iblk1 V c 5 t) y
      = Cert.Spec.tail (V c main_v0) (V c main_v1) (V c main_v2) (V c main_v3) (V c main_v4) (V c main_v5)
          (((cfg1.win 6).blk t).view.emb y) := by
  have hy : y = ix2 (⟨(y 0).val, (y 0).isLt⟩ : Fin 256) (⟨(y 1).val, (y 1).isLt⟩ : Fin 256) :=
    funext fun a => by match a with | ⟨0, _⟩ => rfl | ⟨1, _⟩ => rfl
  generalize (⟨(y 0).val, (y 0).isLt⟩ : Fin 256) = p at hy
  generalize (⟨(y 1).val, (y 1).isLt⟩ : Fin 256) = q at hy
  subst hy
  rw [emb6_ix2]
  exact leaves_ix2 V c t p q

/-- What point `t` writes back is block `t` of the specification's array. -/
theorem flushed1_eq (c : Dev nD) (t : Fin cfg1.N) :
    (dat1 (F := Ideal) V c).flushed 6 t = ((cfg1.win 6).blk t).view.read (Elt Ideal)
      (Cert.Spec.tail (V c main_v0) (V c main_v1) (V c main_v2) (V c main_v3) (V c main_v4) (V c main_v5)) := by
  show (cfg1.win 6).cut (grid1.coords t) ((dat1 (F := Ideal) V c).after 6 t) = _
  rw [after1_6]
  unfold out1_6
  rw [View.canon_unit_zero zeroOff]
  simp only [View.ld_unit_zero (S := S256x4096) zeroOff, View.ld_unit_zero (S := S1024x4096) zeroOff,
    View.ld_unit_zero (S := S256x1024) zeroOff, View.ld_unit_zero (S := S1x4096) zeroOff,
    View.ld_unit_zero (S := S1x1024) zeroOff, View.ld_unit_zero (S := S1x256) zeroOff]
  funext y
  exact leaves_at V c t y

/-- An index of the output array is in point `t`'s block iff each coordinate is in the block's range. -/
theorem mem_blk6 (t : Fin cfg1.N) (i : S1024x256.Idx) :
    i ∈ ((cfg1.win 6).blk t).view.set ↔ ∀ a : Fin 2, win1_6.index t a * S256x256.size a ≤ (i a).val ∧ (i a).val < win1_6.index t a * S256x256.size a + S256x256.size a := by
  show i ∈ ((View.whole main_v6).slice (win1_6.rect t)).set ↔ _
  rw [View.set_slice_whole, Rect.mem_set_unit]
  exact Iff.rfl

/-- Row `r` of the output array is written back by point `r / 256`. -/
theorem cover6 (i : S1024x256.Idx) :
    ∃ t : Fin cfg1.N, (cfg1.win 6).flush t = true ∧ i ∈ ((cfg1.win 6).blk t).view.set := by
  have hi0 : (i 0).val < 1024 := (i 0).isLt
  have hi1 : (i 1).val < 256 := (i 1).isLt
  obtain ⟨t, ht⟩ : ∃ t : Fin cfg1.N, t.val = (i 0).val / 256 :=
    ⟨⟨(i 0).val / 256, by show (i 0).val / 256 < grid1.N; rw [N_1]; omega⟩, rfl⟩
  obtain ⟨e00, e01, e10, e11, e20, e21, e30, e31, e40, e41, e50, e51, e60, e61⟩ := idx_facts1 t
  refine ⟨t, flush1_6 t, ?_⟩
  rw [mem_blk6]
  intro a
  match a with
  | ⟨0, _⟩ => show win1_6.index t (0 : Fin 2) * 256 ≤ (i 0).val ∧ (i 0).val < win1_6.index t (0 : Fin 2) * 256 + 256; omega
  | ⟨1, _⟩ => show win1_6.index t (1 : Fin 2) * 256 ≤ (i 1).val ∧ (i 1).val < win1_6.index t (1 : Fin 2) * 256 + 256; omega

/-- The output array after the four points is the specification's array. -/
theorem res1_eq (c : Dev nD) : (dat1 (F := Ideal) V c).arrAt 6 cfg1.N
    = Cert.Spec.tail (V c main_v0) (V c main_v1) (V c main_v2) (V c main_v3) (V c main_v4) (V c main_v5) :=
  (dat1 (F := Ideal) V c).arrAt_eq_of_cover 6
    (Cert.Spec.tail (V c main_v0) (V c main_v1) (V c main_v2) (V c main_v3) (V c main_v4) (V c main_v5))
    (fun t _ => flushed1_eq V c t) cover6

end Cert.KernelIdeal.Hand

end
-- ==== Proof.IHost.lean ====
/- What the five host operations between the two calls leave, on core c, read at the ideal values: the two
   narrowing conversions are the identity there (every float type's ideal values are the extended reals), and a
   vector reshaped to a one-row matrix reads, at (0, j), the vector at j. The first call's result array is not
   written by any of them. -/
import proofs.«142497_g35089882808761_cont_8to1_b_317_16_alg».proof.Proof.IVals
import Idealize.ShloMosaic.Lib.StableHlo.Run
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable (m : (ℓ : Loc nD τ sig) → Buf (Elt Ideal) ℓ)

/-- No host operation writes the first call's result array. -/
theorem V2_v0 (c : Dev nD) : V2 m c main_v0 = res0 (V0 m) c :=
  (W2_of m c main_v0 (by decide)).trans (W1_v0 m c)

/-- W1 narrowed to bf16 is W1: the conversion is the identity on the extended reals. -/
theorem V2_v1 (c : Dev nD) : V2 m c main_v1 = m ((c : Thread nD τ).loc main_arg3) := by
  show StableHlo.after hostOps1 (W1 m c) (Proc.devRef .tc main_v1) = _
  after_results
  rw [W1_of_ne m c main_arg3 (by decide)]
  exact funext fun i => Ideal.truncf_def _ _ _

/-- W2 narrowed to bf16 is W2. -/
theorem V2_v2 (c : Dev nD) : V2 m c main_v2 = m ((c : Thread nD τ).loc main_arg5) := by
  show StableHlo.after hostOps1 (W1 m c) (Proc.devRef .tc main_v2) = _
  after_results
  rw [W1_of_ne m c main_arg5 (by decide)]
  exact funext fun i => Ideal.truncf_def _ _ _

/-- The bias b0 as a row: at (0, j) it is b0 at j. -/
theorem V2_v3 (c : Dev nD) (j : Fin 4096) :
    V2 m c main_v3 (ValueIdx.ix2 (0 : Fin 1) j) = m ((c : Thread nD τ).loc main_arg2) (ValueIdx.ix1 j) := by
  show StableHlo.after hostOps1 (W1 m c) (Proc.devRef .tc main_v3) _ = _
  after_results
  rw [W1_of_ne m c main_arg2 (by decide)]
  exact ValueIdx.shapeCast_a_1a_apply (m ((c : Thread nD τ).loc main_arg2)) shapeCasts_S4096_S1x4096 0 j

/-- The bias b1 as a row: at (0, j) it is b1 at j. -/
theorem V2_v4 (c : Dev nD) (j : Fin 1024) :
    V2 m c main_v4 (ValueIdx.ix2 (0 : Fin 1) j) = m ((c : Thread nD τ).loc main_arg4) (ValueIdx.ix1 j) := by
  show StableHlo.after hostOps1 (W1 m c) (Proc.devRef .tc main_v4) _ = _
  after_results
  rw [W1_of_ne m c main_arg4 (by decide)]
  exact ValueIdx.shapeCast_a_1a_apply (m ((c : Thread nD τ).loc main_arg4)) shapeCasts_S1024_S1x1024 0 j

/-- The bias b2 as a row: at (0, j) it is b2 at j. -/
theorem V2_v5 (c : Dev nD) (j : Fin 256) :
    V2 m c main_v5 (ValueIdx.ix2 (0 : Fin 1) j) = m ((c : Thread nD τ).loc main_arg6) (ValueIdx.ix1 j) := by
  show StableHlo.after hostOps1 (W1 m c) (Proc.devRef .tc main_v5) _ = _
  after_results
  rw [W1_of_ne m c main_arg6 (by decide)]
  exact ValueIdx.shapeCast_a_1a_apply (m ((c : Thread nD τ).loc main_arg6)) shapeCasts_S256_S1x256 0 j

end Cert.KernelIdeal.Hand

end
-- ==== Proof.IFinal.lean ====
/- The kernel program's final result array, on core c, is the specification's function `G` of the seven
   launch arrays — given what each of the two calls leaves (taken as hypotheses here): the first call layer 0's
   matrix product, the second the specification's tail of the six arrays it reads. What is added here is that those
   six arrays are the ones `G` names: the product, W1 and W2 unchanged by the narrowing, and each bias as a row. -/
import proofs.«142497_g35089882808761_cont_8to1_b_317_16_alg».proof.Proof.IHost
import proofs.«142497_g35089882808761_cont_8to1_b_317_16_alg».proof.Proof.Spec
import Idealize.ShloMosaic.Lib.StableHlo.Run
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable (m : (ℓ : Loc nD τ sig) → Buf (Elt Ideal) ℓ)

/-! ## The six arrays the second call reads, as the specification's `G` writes them -/

/-- The first call's result array is layer 0's matrix product of the launch contents. -/
theorem V2_v0_dot
    (h0 : ∀ (c : Dev nD) (i : S1024x4096.Idx), res0 (V0 m) c i = Cert.Spec.dot0 (V0 m c main_arg0) (V0 m c main_arg1) ⟨(i 0).val, (i 0).isLt⟩ ⟨(i 1).val, (i 1).isLt⟩)
    (c : Dev nD) :
    V2 m c main_v0 = fun i : Cert.Spec.T1024x4096.Idx =>
      Cert.Spec.dot0 (m ((c : Thread nD τ).loc main_arg0)) (m ((c : Thread nD τ).loc main_arg1))
        ⟨(i 0).val, (i 0).isLt⟩ ⟨(i 1).val, (i 1).isLt⟩ :=
  (V2_v0 m c).trans (funext fun i => h0 c i)

/-- An index of a one-row matrix is (0, its second coordinate). -/
theorem row_idx {n : Nat} (i : (⟨2, ![1, n]⟩ : Shape).Idx) :
    i = ValueIdx.ix2 (0 : Fin 1) (⟨(i 1).val, (i 1).isLt⟩ : Fin n) :=
  funext fun a => by
    match a with
    | ⟨0, _⟩ => exact Fin.ext (Nat.lt_one_iff.mp (i ⟨0, _⟩).isLt)
    | ⟨1, _⟩ => rfl

/-- The bias row b0, at any index of the row, is b0 at the second coordinate. -/
theorem V2_v3_row (c : Dev nD) :
    V2 m c main_v3 = fun i : Cert.Spec.T1x4096.Idx =>
      m ((c : Thread nD τ).loc main_arg2) (ValueIdx.ix1 (⟨(i 1).val, (i 1).isLt⟩ : Fin 4096)) :=
  funext fun i => (congrArg (V2 m c main_v3) (row_idx i)).trans (V2_v3 m c ⟨(i 1).val, (i 1).isLt⟩)

/-- The bias row b1, at any index of the row, is b1 at the second coordinate. -/
theorem V2_v4_row (c : Dev nD) :
    V2 m c main_v4 = fun i : Cert.Spec.T1x1024.Idx =>
      m ((c : Thread nD τ).loc main_arg4) (ValueIdx.ix1 (⟨(i 1).val, (i 1).isLt⟩ : Fin 1024)) :=
  funext fun i => (congrArg (V2 m c main_v4) (row_idx i)).trans (V2_v4 m c ⟨(i 1).val, (i 1).isLt⟩)

/-- The bias row b2, at any index of the row, is b2 at the second coordinate. -/
theorem V2_v5_row (c : Dev nD) :
    V2 m c main_v5 = fun i : Cert.Spec.T1x256.Idx =>
      m ((c : Thread nD τ).loc main_arg6) (ValueIdx.ix1 (⟨(i 1).val, (i 1).isLt⟩ : Fin 256)) :=
  funext fun i => (congrArg (V2 m c main_v5) (row_idx i)).trans (V2_v5 m c ⟨(i 1).val, (i 1).isLt⟩)

/-! ## The whole -/

/-- The kernel program's final result array is the specification's `G` of the seven launch arrays: the second
    call leaves the specification's tail of the six arrays it reads, and these are layer 0's product, W1, W2 and
    the three bias rows. -/
theorem kernel_eq_G
    (h0 : ∀ (c : Dev nD) (i : S1024x4096.Idx), res0 (V0 m) c i = Cert.Spec.dot0 (V0 m c main_arg0) (V0 m c main_arg1) ⟨(i 0).val, (i 0).isLt⟩ ⟨(i 1).val, (i 1).isLt⟩)
    (h1 : ∀ c : Dev nD, (dat1 (F := Ideal) (V2 m) c).arrAt 6 cfg1.N = Cert.Spec.tail (V2 m c main_v0) (V2 m c main_v1) (V2 m c main_v2) (V2 m c main_v3) (V2 m c main_v4) (V2 m c main_v5))
    (c : Dev nD) :
    W3 m c main_v6 = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [W3_v6]
  unfold res1
  rw [h1 c, V2_v0_dot m h0 c, V2_v1 m c, V2_v2 m c, V2_v3_row m c, V2_v4_row m c, V2_v5_row m c]
  rfl

end Cert.KernelIdeal.Hand

end
-- ==== Proof.RefValue.lean ====
/- The reference program's result, read at an index: it is the specification's function `G` of the seven
   argument arrays. Layer by layer, at explicit coordinates (r, c): the reference's transposes, broadcasts and
   contractions read their operands at composed index functions, and each of these is the index built from the
   coordinates; what is left is the specification's own sum, maximum and bias row. -/
import proofs.«142497_g35089882808761_cont_8to1_b_317_16_alg».proof.Proof.Gen.ReferenceIdeal.Run
import proofs.«142497_g35089882808761_cont_8to1_b_317_16_alg».proof.Proof.Gen.ReferenceIdeal.Read
import proofs.«142497_g35089882808761_cont_8to1_b_317_16_alg».proof.Proof.Spec

noncomputable section

namespace Cert.RefValue

open Cert.ReferenceIdeal Cert.ReferenceIdeal.Read Idealize.ShloMosaic Idealize.ShloMosaic.ValueIdx

variable (x0 : (⟨S1024x16384, .f32⟩ : BufTy).Contents (Elt Ideal)) (x1 : (⟨S4096x16384, .f32⟩ : BufTy).Contents (Elt Ideal))
  (x2 : (⟨S4096, .f32⟩ : BufTy).Contents (Elt Ideal)) (x3 : (⟨S1024x4096, .f32⟩ : BufTy).Contents (Elt Ideal))
  (x4 : (⟨S1024, .f32⟩ : BufTy).Contents (Elt Ideal)) (x5 : (⟨S256x1024, .f32⟩ : BufTy).Contents (Elt Ideal))
  (x6 : (⟨S256, .f32⟩ : BufTy).Contents (Elt Ideal))

/-! ## The arrays the specification's tail is applied to -/

/-- Layer 0's matrix product as an array. -/
abbrev h0 : Spec.T1024x4096.Idx → EReal :=
  fun i => Spec.dot0 x0 x1 ⟨(i 0).val, (i 0).isLt⟩ ⟨(i 1).val, (i 1).isLt⟩
/-- Layer 0's bias as a row. -/
abbrev row0 : Spec.T1x4096.Idx → EReal := fun i => x2 (ix1 (⟨(i 1).val, (i 1).isLt⟩ : Fin 4096))
/-- Layer 1's bias as a row. -/
abbrev row1 : Spec.T1x1024.Idx → EReal := fun i => x4 (ix1 (⟨(i 1).val, (i 1).isLt⟩ : Fin 1024))
/-- Layer 2's bias as a row. -/
abbrev row2 : Spec.T1x256.Idx → EReal := fun i => x6 (ix1 (⟨(i 1).val, (i 1).isLt⟩ : Fin 256))

/-! ## Index equations: the composed index functions are the indices built from the coordinates -/

/-- The left operand of layer 0's contraction is read at (r, k). -/
theorem lidx1_eq (r : Fin 1024) (c : Fin 4096) (k : Fin 16384) : lidx_main_v1 (ix2 r c) k = ix2 r k :=
  funext fun a => Fin.ext (by match a with | ⟨0, _⟩ => rfl | ⟨1, _⟩ => rfl)
/-- The transposed W0 at (k, c) is W0 at (c, k). -/
theorem ridx1_eq (r : Fin 1024) (c : Fin 4096) (k : Fin 16384) :
    idx_main_v0 (ridx_main_v1 (ix2 r c) k) = ix2 c k :=
  funext fun a => Fin.ext (by match a with | ⟨0, _⟩ => rfl | ⟨1, _⟩ => rfl)
/-- The bias b0 broadcast to a row and then to the whole array is read at c. -/
theorem bidx0_eq (r : Fin 1024) (c : Fin 4096) : idx_main_v2 (idx_main_v3 (ix2 r c)) = ix1 c :=
  funext fun a => Fin.ext (by match a with | ⟨0, _⟩ => rfl)
theorem lidx7_eq (r : Fin 1024) (c : Fin 1024) (k : Fin 4096) : lidx_main_v7 (ix2 r c) k = ix2 r k :=
  funext fun a => Fin.ext (by match a with | ⟨0, _⟩ => rfl | ⟨1, _⟩ => rfl)
theorem ridx7_eq (r : Fin 1024) (c : Fin 1024) (k : Fin 4096) :
    idx_main_v6 (ridx_main_v7 (ix2 r c) k) = ix2 c k :=
  funext fun a => Fin.ext (by match a with | ⟨0, _⟩ => rfl | ⟨1, _⟩ => rfl)
theorem bidx1_eq (r : Fin 1024) (c : Fin 1024) : idx_main_v8 (idx_main_v9 (ix2 r c)) = ix1 c :=
  funext fun a => Fin.ext (by match a with | ⟨0, _⟩ => rfl)
theorem lidx13_eq (r : Fin 1024) (c : Fin 256) (k : Fin 1024) : lidx_main_v13 (ix2 r c) k = ix2 r k :=
  funext fun a => Fin.ext (by match a with | ⟨0, _⟩ => rfl | ⟨1, _⟩ => rfl)
theorem ridx13_eq (r : Fin 1024) (c : Fin 256) (k : Fin 1024) :
    idx_main_v12 (ridx_main_v13 (ix2 r c) k) = ix2 c k :=
  funext fun a => Fin.ext (by match a with | ⟨0, _⟩ => rfl | ⟨1, _⟩ => rfl)
theorem bidx2_eq (r : Fin 1024) (c : Fin 256) : idx_main_v14 (idx_main_v15 (ix2 r c)) = ix1 c :=
  funext fun a => Fin.ext (by match a with | ⟨0, _⟩ => rfl)

/-! ## Layer by layer -/

/-- Layer 0 before the bias: x against the transposed W0, contracted over the 16384 columns. -/
theorem v1_at (r : Fin 1024) (c : Fin 4096) :
    val_main_v1 (F := Ideal) x0 x1 (ix2 r c) = Spec.dot0 x0 x1 r c := by
  rw [val_main_v1_apply]
  unfold Spec.dot0
  refine Finset.sum_congr rfl fun k _ => ?_
  rw [val_main_v0_apply, lidx1_eq, ridx1_eq]

/-- Layer 0 after the bias and the maximum with the broadcast zero. -/
theorem v5_at (r : Fin 1024) (c : Fin 4096) :
    val_main_v5 (F := Ideal) x0 x1 x2 (ix2 r c) = Spec.act0 (h0 x0 x1) (row0 x2) r c := by
  rw [val_main_v5_apply, val_main_v4_apply, v1_at, val_main_v3_apply, val_main_v2_apply, bidx0_eq,
    val_main_call0_v0_apply, val_main_call0_cst_apply]
  simp only [Ideal.addf_def, Ideal.maximumf_def, Ideal.ofBits_def, Ideal.ofBits_zero_f32]
  rfl

/-- Layer 1 before the bias: the activations against the transposed W1, contracted over the 4096 columns. -/
theorem v7_at (r : Fin 1024) (c : Fin 1024) :
    val_main_v7 (F := Ideal) x0 x1 x2 x3 (ix2 r c)
      = ∑ j : Fin 4096, Spec.act0 (h0 x0 x1) (row0 x2) r j * x3 (ix2 c j) := by
  rw [val_main_v7_apply]
  refine Finset.sum_congr rfl fun k _ => ?_
  rw [val_main_v6_apply, lidx7_eq, ridx7_eq, v5_at]

/-- Layer 1 after the bias and the maximum with the broadcast zero. -/
theorem v11_at (r : Fin 1024) (c : Fin 1024) :
    val_main_v11 (F := Ideal) x0 x1 x2 x3 x4 (ix2 r c) = Spec.act1 (h0 x0 x1) x3 (row0 x2) (row1 x4) r c := by
  rw [val_main_v11_apply, val_main_v10_apply, v7_at, val_main_v9_apply, val_main_v8_apply, bidx1_eq,
    val_main_call1_v0_apply, val_main_call1_cst_apply]
  simp only [Ideal.addf_def, Ideal.maximumf_def, Ideal.ofBits_def, Ideal.ofBits_zero_f32]
  rfl

/-- Layer 2 before the bias: the activations against the transposed W2, contracted over the 1024 columns. -/
theorem v13_at (r : Fin 1024) (c : Fin 256) :
    val_main_v13 (F := Ideal) x0 x1 x2 x3 x4 x5 (ix2 r c)
      = ∑ j : Fin 1024, Spec.act1 (h0 x0 x1) x3 (row0 x2) (row1 x4) r j * x5 (ix2 c j) := by
  rw [val_main_v13_apply]
  refine Finset.sum_congr rfl fun k _ => ?_
  rw [val_main_v12_apply, lidx13_eq, ridx13_eq, v11_at]

/-- Layer 2 with its bias: no maximum. -/
theorem v16_at (r : Fin 1024) (c : Fin 256) :
    val_main_v16 (F := Ideal) x0 x1 x2 x3 x4 x5 x6 (ix2 r c)
      = Spec.out2 (h0 x0 x1) x3 x5 (row0 x2) (row1 x4) (row2 x6) r c := by
  rw [val_main_v16_apply, v13_at, val_main_v15_apply, val_main_v14_apply, bidx2_eq]
  simp only [Ideal.addf_def]
  rfl

/-! ## The whole -/

/-- The reference's result array is the specification's `G` of the seven arguments. -/
theorem ref_eq_G (x0 : (⟨Cert.ReferenceIdeal.S1024x16384, .f32⟩ : BufTy).Contents (Elt Ideal)) (x1 : (⟨Cert.ReferenceIdeal.S4096x16384, .f32⟩ : BufTy).Contents (Elt Ideal)) (x2 : (⟨Cert.ReferenceIdeal.S4096, .f32⟩ : BufTy).Contents (Elt Ideal)) (x3 : (⟨Cert.ReferenceIdeal.S1024x4096, .f32⟩ : BufTy).Contents (Elt Ideal)) (x4 : (⟨Cert.ReferenceIdeal.S1024, .f32⟩ : BufTy).Contents (Elt Ideal)) (x5 : (⟨Cert.ReferenceIdeal.S256x1024, .f32⟩ : BufTy).Contents (Elt Ideal)) (x6 : (⟨Cert.ReferenceIdeal.S256, .f32⟩ : BufTy).Contents (Elt Ideal)) :
    Cert.ReferenceIdeal.Read.val_main_v16 (F := Ideal) x0 x1 x2 x3 x4 x5 x6 = Cert.Spec.G x0 x1 x2 x3 x4 x5 x6 := by
  funext i
  obtain ⟨r, c, rfl⟩ : ∃ (r : Fin 1024) (c : Fin 256), i = ix2 r c := ⟨i 0, i 1, eq_ix2 i⟩
  rw [v16_at]
  rfl

end Cert.RefValue

end
-- ==== Proof.lean ====
/- Both programs compute the three-layer perceptron
     out = max(max(x W0ᵀ + b0, 0) W1ᵀ + b1, 0) W2ᵀ + b2
   of their seven arrays. The reference does it with three whole matrix products. The kernel does it with two
   pipelined calls: the first accumulates x W0ᵀ slab by slab (eight 2048-column slabs, four 1024-column output
   blocks) in a 1024 x 4096 buffer it keeps between grid points, the second applies the rest to four 256-row
   slabs of that result. Over the extended reals the slab sums regroup into the whole sums (addition there is
   associative and commutative) and the changes of float format are the identity, so the two results are one
   function of the arguments (Spec.G), element by element.
   The frames: each pipelined program is run as its three items (region, five host operations, region) with the
   contents of every buffer that outlives a region named at each boundary; the arguments are never written. The
   reference is a straight line of host operations. -/
import proofs.«142497_g35089882808761_cont_8to1_b_317_16_alg».proof.Defs
import proofs.«142497_g35089882808761_cont_8to1_b_317_16_alg».proof.Proof.Gen.Kernel
import proofs.«142497_g35089882808761_cont_8to1_b_317_16_alg».proof.Proof.Gen.KernelIdeal
import proofs.«142497_g35089882808761_cont_8to1_b_317_16_alg».proof.Proof.Gen.ReferenceIdeal
import proofs.«142497_g35089882808761_cont_8to1_b_317_16_alg».proof.Proof.Gen.Pre_finite_inputs
import proofs.«142497_g35089882808761_cont_8to1_b_317_16_alg».proof.Proof.BLaunch
import proofs.«142497_g35089882808761_cont_8to1_b_317_16_alg».proof.Proof.ILaunch
import proofs.«142497_g35089882808761_cont_8to1_b_317_16_alg».proof.Proof.IValue0
import proofs.«142497_g35089882808761_cont_8to1_b_317_16_alg».proof.Proof.IValue1
import proofs.«142497_g35089882808761_cont_8to1_b_317_16_alg».proof.Proof.IFinal
import proofs.«142497_g35089882808761_cont_8to1_b_317_16_alg».proof.Proof.RefValue
import Idealize.ShloMosaic.Adequacy
import Idealize.ShloMosaic.Init

noncomputable section

namespace Cert.Proof

open Idealize.ShloMosaic Idealize.SL.Sem

/-- The word-level kernel runs and leaves its seven arguments as launched. -/
theorem frame_kernel : Cert.frame_Kernel := fun m ρ _ =>
  (θ_run Cert.Kernel.defs _ _).mono (fun r h c =>
    ⟨(h c _ (Cert.Kernel.Hand.mem_uc Cert.Kernel.main_arg0 (by decide))).trans (Cert.Kernel.Hand.W3_arg m c Cert.Kernel.main_arg0 (by decide) (by decide) (by decide)),
     (h c _ (Cert.Kernel.Hand.mem_uc Cert.Kernel.main_arg1 (by decide))).trans (Cert.Kernel.Hand.W3_arg m c Cert.Kernel.main_arg1 (by decide) (by decide) (by decide)),
     (h c _ (Cert.Kernel.Hand.mem_uc Cert.Kernel.main_arg2 (by decide))).trans (Cert.Kernel.Hand.W3_arg m c Cert.Kernel.main_arg2 (by decide) (by decide) (by decide)),
     (h c _ (Cert.Kernel.Hand.mem_uc Cert.Kernel.main_arg3 (by decide))).trans (Cert.Kernel.Hand.W3_arg m c Cert.Kernel.main_arg3 (by decide) (by decide) (by decide)),
     (h c _ (Cert.Kernel.Hand.mem_uc Cert.Kernel.main_arg4 (by decide))).trans (Cert.Kernel.Hand.W3_arg m c Cert.Kernel.main_arg4 (by decide) (by decide) (by decide)),
     (h c _ (Cert.Kernel.Hand.mem_uc Cert.Kernel.main_arg5 (by decide))).trans (Cert.Kernel.Hand.W3_arg m c Cert.Kernel.main_arg5 (by decide) (by decide) (by decide)),
     (h c _ (Cert.Kernel.Hand.mem_uc Cert.Kernel.main_arg6 (by decide))).trans (Cert.Kernel.Hand.W3_arg m c Cert.Kernel.main_arg6 (by decide) (by decide) (by decide))⟩)
    (Cert.Kernel.Hand.run_main (F := Bits) m ρ)

/-- The idealized kernel's run with its result named: the specification of the arguments. -/
theorem run_kernelIdeal (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v6)
          = Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
              (m ((c.tc : Thread Cert.KernelIdeal.nD Cert.KernelIdeal.τ).loc Cert.KernelIdeal.main_arg2)) (m ((c.tc : Thread Cert.KernelIdeal.nD Cert.KernelIdeal.τ).loc Cert.KernelIdeal.main_arg3))
              (m ((c.tc : Thread Cert.KernelIdeal.nD Cert.KernelIdeal.τ).loc Cert.KernelIdeal.main_arg4)) (m ((c.tc : Thread Cert.KernelIdeal.nD Cert.KernelIdeal.τ).loc Cert.KernelIdeal.main_arg5))
              (m ((c.tc : Thread Cert.KernelIdeal.nD Cert.KernelIdeal.τ).loc Cert.KernelIdeal.main_arg6))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run Cert.KernelIdeal.defs _ _).mono (fun r h c =>
    ⟨(h c _ (Cert.KernelIdeal.Hand.mem_uc Cert.KernelIdeal.main_v6 (by decide))).trans
        (Cert.KernelIdeal.Hand.kernel_eq_G m (fun c i => Cert.KernelIdeal.Hand.res0_eq (Cert.KernelIdeal.Hand.V0 m) c i)
          (fun c => Cert.KernelIdeal.Hand.res1_eq (Cert.KernelIdeal.Hand.V2 m) c) c),
     (h c _ (Cert.KernelIdeal.Hand.mem_uc Cert.KernelIdeal.main_arg0 (by decide))).trans (Cert.KernelIdeal.Hand.W3_arg m c Cert.KernelIdeal.main_arg0 (by decide) (by decide) (by decide)),
     (h c _ (Cert.KernelIdeal.Hand.mem_uc Cert.KernelIdeal.main_arg1 (by decide))).trans (Cert.KernelIdeal.Hand.W3_arg m c Cert.KernelIdeal.main_arg1 (by decide) (by decide) (by decide)),
     (h c _ (Cert.KernelIdeal.Hand.mem_uc Cert.KernelIdeal.main_arg2 (by decide))).trans (Cert.KernelIdeal.Hand.W3_arg m c Cert.KernelIdeal.main_arg2 (by decide) (by decide) (by decide)),
     (h c _ (Cert.KernelIdeal.Hand.mem_uc Cert.KernelIdeal.main_arg3 (by decide))).trans (Cert.KernelIdeal.Hand.W3_arg m c Cert.KernelIdeal.main_arg3 (by decide) (by decide) (by decide)),
     (h c _ (Cert.KernelIdeal.Hand.mem_uc Cert.KernelIdeal.main_arg4 (by decide))).trans (Cert.KernelIdeal.Hand.W3_arg m c Cert.KernelIdeal.main_arg4 (by decide) (by decide) (by decide)),
     (h c _ (Cert.KernelIdeal.Hand.mem_uc Cert.KernelIdeal.main_arg5 (by decide))).trans (Cert.KernelIdeal.Hand.W3_arg m c Cert.KernelIdeal.main_arg5 (by decide) (by decide) (by decide)),
     (h c _ (Cert.KernelIdeal.Hand.mem_uc Cert.KernelIdeal.main_arg6 (by decide))).trans (Cert.KernelIdeal.Hand.W3_arg m c Cert.KernelIdeal.main_arg6 (by decide) (by decide) (by decide))⟩)
    (Cert.KernelIdeal.Hand.run_main (F := Ideal) m ρ)

theorem frame_kernelIdeal : Cert.frame_KernelIdeal := fun m ρ _ =>
  (θ_run Cert.KernelIdeal.defs _ _).mono (fun _ h c => (h c).2) (run_kernelIdeal m ρ)

/-- The reference is a straight line of host operations: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the specification of those
    arguments in their result arrays. -/
theorem algebraic : Cert.algebraic_KernelIdeal_ReferenceIdeal := by
  intro m ρ m' ρ' _ hagree
  refine ⟨_, run_kernelIdeal m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1, (hagree c).2.2.2.2.2.2]
  exact (Cert.ReferenceIdeal.Read.val_main_v16_eq _ _ _ _ _ _ _).trans (Cert.RefValue.ref_eq_G _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
